-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384 : Shape := ⟨1, ![16384]⟩
abbrev S1000x1024 : Shape := ⟨2, ![1000, 1024]⟩
abbrev S1000 : Shape := ⟨1, ![1000]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  let main_c_6 : IVec S_ 32 := constantI S_ 32 1000#32
  let main_v18 : IVec S16384 32 := broadcastInDim S16384 ![] bcast_S_S16384 main_c_6
  let main_v19 : IVec S16384 1 := cmpi .slt main_arg1 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v17 main_v20
  main_v21

def fn {F : FTy → Type} [FloatOps F] (main_arg0 : FVec F S16384x1024 .f32) (main_arg1 : IVec S16384 32) (main_arg2 : FVec F S1000x1024 .f32) (main_arg3 : FVec F S1000 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_v9 : FVec F S1000 .f32 := Host.absf main_arg3
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 1 := constantI S_ 1 1#1
  fn_part1 (F := F) main_arg1 main_v13 main_v15 main_c_5
-- ==== Kernel.lean ====
abbrev S16384x1024 : Shape := ⟨2, ![16384, 1024]⟩
abbrev S16384 : Shape := ⟨1, ![16384]⟩
abbrev S1000x1024 : Shape := ⟨2, ![1000, 1024]⟩
abbrev S1000 : Shape := ⟨1, ![1000]⟩
abbrev S1024x1000 : Shape := ⟨2, ![1024, 1000]⟩
abbrev S_ : Shape := ⟨0, ![]⟩
abbrev S1024x1024 : Shape := ⟨2, ![1024, 1024]⟩
abbrev S1024 : Shape := ⟨1, ![1024]⟩
abbrev S1x1024 : Shape := ⟨2, ![1, 1024]⟩
abbrev S16384x1 : Shape := ⟨2, ![16384, 1]⟩
abbrev S16x1x1024 : Shape := ⟨3, ![16, 1, 1024]⟩
abbrev S1024x1 : Shape := ⟨2, ![1024, 1]⟩
abbrev S1x1x1024 : Shape := ⟨3, ![1, 1, 1024]⟩
abbrev S1 : Shape := ⟨1, ![1]⟩
abbrev S1x1 : Shape := ⟨2, ![1, 1]⟩
abbrev S16x1024 : Shape := ⟨2, ![16, 1024]⟩

abbrev nBuf : Space → Nat
  | .hbm => 50
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S1000, .f32⟩
  | .hbm, ⟨4, _⟩ => ⟨S1024x1000, .f32⟩
  | .hbm, ⟨5, _⟩ => ⟨S_, .i32⟩
  | .hbm, ⟨6, _⟩ => ⟨S_, .f32⟩
  | .hbm, ⟨7, _⟩ => ⟨S1024x1024, .f32⟩
  | .hbm, ⟨8, _⟩ => ⟨S1024x1024, .bf16⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S16384x1, .i32⟩
  | .hbm, ⟨25, _⟩ => ⟨S16x1x1024, .f32⟩
  | .hbm, ⟨26, _⟩ => ⟨S16x1024, .f32⟩
  | .hbm, ⟨27, _⟩ => ⟨S_, .f32⟩
  | .hbm, ⟨28, _⟩ => ⟨S1024, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384x1, .i32⟩
  | .hbm, ⟨44, _⟩ => ⟨S16384, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1x1x1024, .f32⟩
  | .local _ .vmem, ⟨7, _⟩ => ⟨S1x1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_2 : Ref sig .tc := ⟨.hbm, 17, rfl⟩
abbrev main_call2_v0 : Ref sig .tc := ⟨.hbm, 18, rfl⟩
abbrev main_call2_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_c_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S1000x1024_S1024x1000_1_0 : S1000x1024.Transposes [1, 0] S1024x1000
  pads_S1024x1000_S1024x1024_000_0240 : S1024x1000.Pads (![0, 0] : Fin 2 → Nat) ![0, 24] ![0, 0] S1024x1024
  h_S_ : 0 < S_.numel
  bitsLt_bf16_f32 : FTy.bits .bf16 < FTy.bits .f32
  pads_S1000_S1024_0240 : S1000.Pads (![0] : Fin 1 → Nat) ![24] ![0] S1024
  bcast_S_S1024 : S_.BroadcastsInDim S1024 (![] : Fin 0 → Fin S1024.rank)
  shapeCasts_S1024_S1x1024 : S1024.ShapeCasts S1x1024
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024_2 : S1024x1024.Reduces [0] S1024
  reduces_S1024x1_S1 : S1024x1.Reduces [0] S1
  shapeCasts_S1_S1x1 : S1.ShapeCasts S1x1
  broadcasts_S1x1_S1x1024 : S1x1.Broadcasts S1x1024
  iota_S1x1024_d1_w32 : S1x1024.Iotas .tc 32 [1]
  shapeCasts_S1x1_S1x1 : S1x1.ShapeCasts S1x1
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16x1024 : S16x1x1024.ShapeCasts S16x1024
  reducesTo_S16x1024_S1024_d0 : S16x1024.ReducesTo [0] S1024
  slices_S1024_S1_1000 : S1024.Slices ![1000] S1
  shapeCasts_S1_S_ : S1.ShapeCasts S_
  bcast_S_S16384 : S_.BroadcastsInDim S16384 (![] : Fin 0 → Fin S16384.rank)
  bcast_S16384_S16384x1_0 : S16384.BroadcastsInDim S16384x1 (![0] : Fin 1 → Fin S16384x1.rank)
  reducesTo_S16384_S_d0 : S16384.ReducesTo [0] S_
  dot_S1024x1024_S1024x1024_S1024x1024_1_0_0_1_n_n_wf : DotDims.WF S1024x1024 S1024x1024 S1024x1024 [1] [0] [0] [1] [] []
  gather_S1024_S16384x1_S16384_n_0_n_n_0_1_1_wf : GatherDims.WF S1024 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S16x1x1024.size a
  hwx0_4 : ∀ i : grid0.Coords, EltTy.bits .f32 = 32 ∨ (Rect.block (s := S16x1x1024) S1x1x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S1024_S16384x1_S16384_n_0_n_n_0_1_1 : GatherDims S1024 S16384x1 S16384 where
  offsetDims := []
  collapsedSliceDims := [0]
  operandBatchingDims := []
  startIndicesBatchingDims := []
  startIndexMap := [0]
  indexVectorDim := 1
  sliceSizes := ![1]
  wf := gather_S1024_S16384x1_S16384_n_0_n_n_0_1_1_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384 : Shape := ⟨1, ![16384]⟩
abbrev S1000x1024 : Shape := ⟨2, ![1000, 1024]⟩
abbrev S1000 : Shape := ⟨1, ![1000]⟩
abbrev S16384x1000 : Shape := ⟨2, ![16384, 1000]⟩
abbrev S1x1000 : Shape := ⟨2, ![1, 1000]⟩
abbrev S_ : Shape := ⟨0, ![]⟩
abbrev S16384x1 : Shape := ⟨2, ![16384, 1]⟩
abbrev S16384x2 : Shape := ⟨2, ![16384, 2]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1000x1024, .f32⟩
  | .hbm, ⟨3, _⟩ => ⟨S1000, .f32⟩
  | .hbm, ⟨4, _⟩ => ⟨S16384x1000, .f32⟩
  | .hbm, ⟨5, _⟩ => ⟨S1x1000, .f32⟩
  | .hbm, ⟨6, _⟩ => ⟨S16384x1000, .f32⟩
  | .hbm, ⟨7, _⟩ => ⟨S16384x1000, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x1000, .f32⟩
  | .hbm, ⟨15, _⟩ => ⟨S16384x1000, .f32⟩
  | .hbm, ⟨16, _⟩ => ⟨S16384x1000, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x1, .f32⟩
  | .hbm, ⟨21, _⟩ => ⟨S16384x1000, .f32⟩
  | .hbm, ⟨22, _⟩ => ⟨S16384x1000, .f32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x1, .i32⟩
  | .hbm, ⟨40, _⟩ => ⟨S16384x2, .i32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1000, .f32⟩
  | .hbm, ⟨48, _⟩ => ⟨S_, .f32⟩
  | .hbm, ⟨49, _⟩ => ⟨S1000, .f32⟩
  | .hbm, ⟨50, _⟩ => ⟨S1000, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S16384, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_cst_9 : Ref sig .tc := ⟨.hbm, 62, rfl⟩
abbrev main_v33 : Ref sig .tc := ⟨.hbm, 63, rfl⟩
abbrev main_v34 : Ref sig .tc := ⟨.hbm, 64, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  reducesTo_S16384x1000_S16384_d1 : S16384x1000.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  concatenates_S16384x1_S16384x1_S16384x2_d1 : Shape.Concatenates [S16384x1, S16384x1] S16384x2 1
  reducesTo_S16384_S_d0 : S16384.ReducesTo [0] S_
  reducesTo_S16384x1000_S1000_d0 : S16384x1000.ReducesTo [0] S1000
  bcast_S_S1000 : S_.BroadcastsInDim S1000 (![] : Fin 0 → Fin S1000.rank)
  dot_S16384x1024_S1000x1024_S16384x1000_1_1_0_0_n_n_wf : DotDims.WF S16384x1024 S1000x1024 S16384x1000 [1] [1] [0] [0] [] []
  gather_S16384x1000_S16384x2_S16384_n_01_n_n_01_1_11_wf : GatherDims.WF S16384x1000 S16384x2 S16384 [] [0, 1] [] [0, 1] [] 1 ![1, 1]
  gather_S1000_S16384x1_S16384_n_0_n_n_0_1_1_wf : GatherDims.WF S1000 S16384x1 S16384 [] [0] [] [0] [] 1 ![1]

variable [Facts₀]

def dot_S16384x1024_S1000x1024_S16384x1000_1_1_0_0_n_n : DotDims S16384x1024 S1000x1024 S16384x1000 where
  lhsContracting := [1]
  rhsContracting := [1]
  lhsNonContracting := [0]
  rhsNonContracting := [0]
  lhsBatch := []
  rhsBatch := []
  wf := dot_S16384x1024_S1000x1024_S16384x1000_1_1_0_0_n_n_wf
def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf
def gather_S1000_S16384x1_S16384_n_0_n_n_0_1_1 : GatherDims S1000 S16384x1 S16384 where
  offsetDims := []
  collapsedSliceDims := [0]
  operandBatchingDims := []
  startIndicesBatchingDims := []
  startIndexMap := [0]
  indexVectorDim := 1
  sliceSizes := ![1]
  wf := gather_S1000_S16384x1_S16384_n_0_n_n_0_1_1_wf

class Facts : Prop extends Facts₀ where

variable [Facts]
-- ==== Proof.Spec.lean ====
/-
  The quantity both programs compute, written once over plain index types.

  For logits `a i c` (row `i` of 16384, class `c` of 1000) and labels `l`, the estimator is
      gap a l = (∑ i, a i (l i)) / N  -  (∑ j, (∑ i, a i (l j)) / N) / N          (N = 16384),
  the mean of the diagonal entries minus the mean over all label columns of the column means.  It is unchanged when a
  per-row constant is subtracted from every row (`gap_sub_row`): the constant's contribution to the first mean is
  cancelled by its contribution to the second.  Both programs apply `gap` to `log_softmax` of the logits, that is to
  the logits minus a per-row constant (the row maximum plus the logarithm of the shifted exponentials' sum), so both equal
  `gap` of the logits themselves, whatever that constant is — PROVIDED the constant is a real number, which is where the
  finiteness of the inputs is used: on the extended reals `x - c + c = x` fails at an infinity.

  The reference takes the maximum and the sum over the 1000 classes.  The kernel works on 1024 columns, the 24 padded ones
  carrying weight 0 and bias -1e9, takes ITS maximum and sum over all 1024 columns (so its per-row constant differs from
  the reference's), adds the rows up tile by tile (16 tiles of 1024 rows), and parks the diagonal sum in column 1000.
  `refValue` and `kerValue` below spell the two computations on the extended reals, operation by operation as the two
  programs perform them; that they agree for finite inputs is proved in the modules that import this one.
-/
import Idealize.ShloMosaic.PureOps.Ideal

noncomputable section

open scoped BigOperators

namespace Cert.Club

open Idealize.ShloMosaic

/-- The f32 word of 16384.0, the divisor of every mean. -/
abbrev nWord : EReal := Ideal.ofBits .f32 0x46800000#32
/-- The f32 word of -1.0e9, the bias of a padded column. -/
abbrev negBig : EReal := Ideal.ofBits .f32 0xCE6E6B28#32

/-- Row `r` of tile `t` is row `1024 t + r` of the whole array. -/
def row (t : Fin 16) (r : Fin 1024) : Fin 16384 := ⟨1024 * t.val + r.val, by have := t.isLt; have := r.isLt; omega⟩

/-! ## The estimator over the reals -/

/-- The mean of the diagonal entries minus the mean, over the label columns, of the column means. -/
def gap (a : Fin 16384 → Fin 1000 → ℝ) (l : Fin 16384 → Fin 1000) : ℝ :=
  (∑ i, a i (l i)) / 16384 - (∑ j, (∑ i, a i (l j)) / 16384) / 16384

/-! ## The reference's computation on the extended reals -/

section Programs
variable (X : Fin 16384 → Fin 1024 → EReal) (W : Fin 1000 → Fin 1024 → EReal) (B : Fin 1000 → EReal)

/-- The linear layer: `∑ k, X i k * W c k + B c`. -/
def logit (i : Fin 16384) (c : Fin 1000) : EReal := (∑ k : Fin 1024, X i k * W c k) + B c

/-- The reference's row maximum: the fold of `max` from `-∞` over the 1000 classes, then once more against `-∞`. -/
def refMax (i : Fin 16384) : EReal :=
  max (⊥ : EReal) ((Finset.univ : Finset (Fin 1000)).fold max (⊥ : EReal) (fun c => logit X W B i c))

/-- `log_softmax` as jax lowers it: `(x - m) - log (∑ exp (x - m))`. -/
def refLp (i : Fin 16384) (c : Fin 1000) : EReal :=
  (logit X W B i c - refMax X W B i) - Ideal.log (∑ c' : Fin 1000, Ideal.exp (logit X W B i c' - refMax X W B i))

/-- The reference's result. -/
def refValue (l : Fin 16384 → Fin 1000) : EReal :=
  Ideal.div (∑ i : Fin 16384, refLp X W B i (l i)) nWord
    - Ideal.div (∑ j : Fin 16384, Ideal.div (∑ i : Fin 16384, refLp X W B i (l j)) nWord) nWord

/-! ## The kernel's computation on the extended reals -/

/- One tile's output row, from the tile's blocks: `xb` the 1024 × 1024 block of inputs, `wb k c` the padded transposed
    weights, `bm` the bias plus mask, `lb` the tile's label words.  Column 1000 holds the diagonal sum minus the sum of
    the rows' log-sum-exps, every other column its column sum of shifted logits minus the same. -/
section Tile
variable (xb : Fin 1024 → Fin 1024 → EReal) (wb : Fin 1024 → Fin 1024 → EReal) (bm : Fin 1024 → EReal) (lb : Fin 1024 → BitVec 32)

def tLogit (r c : Fin 1024) : EReal := (∑ k : Fin 1024, xb r k * wb k c) + bm c
def tMax (r : Fin 1024) : EReal := (Finset.univ : Finset (Fin 1024)).fold max (⊥ : EReal) (fun c => tLogit xb wb bm r c)
def tShift (r c : Fin 1024) : EReal := tLogit xb wb bm r c - tMax xb wb bm r
def tLse (r : Fin 1024) : EReal := Ideal.log (∑ c : Fin 1024, Ideal.exp (tShift xb wb bm r c))
/-- The one-hot pick of a row: the shifted logit at the column whose number is the row's label word. -/
def tSel (r : Fin 1024) : EReal := ∑ c : Fin 1024, (if BitVec.ofNat 32 c.val = lb r then tShift xb wb bm r c else 0)
def tilePart (c : Fin 1024) : EReal :=
  if c.val = 1000 then (∑ r : Fin 1024, tSel xb wb bm lb r) - (∑ r : Fin 1024, tLse xb wb bm r)
  else (∑ r : Fin 1024, tShift xb wb bm r c) - (∑ r : Fin 1024, tLse xb wb bm r)
end Tile

/-- The padded, transposed weights: column `c` of the 1024 is class `c`'s weights, or zeros past the 1000 classes. -/
def wPad (k c : Fin 1024) : EReal := if h : c.val < 1000 then W ⟨c.val, h⟩ k else 0
/-- The padded bias plus the mask: `B c + 0` for a class, `0 + (-1e9)` for a padded column. -/
def bMask (c : Fin 1024) : EReal := (if h : c.val < 1000 then B ⟨c.val, h⟩ else 0) + (if c.val < 1000 then 0 else negBig)

/-- Tile `t`'s output row. -/
def kerPart (lw : Fin 16384 → BitVec 32) (t : Fin 16) (c : Fin 1024) : EReal :=
  tilePart (fun r k => X (row t r) k) (wPad W) (bMask B) (fun r => lw (row t r)) c

/-- The tiles' rows added up. -/
def kerColsum (lw : Fin 16384 → BitVec 32) (c : Fin 1024) : EReal := ∑ t : Fin 16, kerPart X W B lw t c

/-- The kernel's result: column 1000's mean minus the mean of the label columns' means. -/
def kerValue (lw : Fin 16384 → BitVec 32) (l : Fin 16384 → Fin 1000) : EReal :=
  Ideal.div (kerColsum X W B lw ⟨1000, by omega⟩) nWord
    - Ideal.div (∑ j : Fin 16384, Ideal.div (kerColsum X W B lw ⟨(l j).val, by have := (l j).isLt; omega⟩) nWord) nWord

end Programs

/-- The linear layer over the reals. -/
def rlogit (x : Fin 16384 → Fin 1024 → ℝ) (w : Fin 1000 → Fin 1024 → ℝ) (b : Fin 1000 → ℝ) (i : Fin 16384) (c : Fin 1000) : ℝ :=
  (∑ k : Fin 1024, x i k * w c k) + b c

end Cert.Club

end
-- ==== Proof.RefValue.lean ====
/-
  The reference program's result, stage by stage, is `Club.refValue` of its arguments: the logits are the contraction plus
  the bias, `log_softmax` is the shifted logits minus the logarithm of the shifted exponentials' sum, the first gather reads
  entry (i, label i) and the second the column means at the labels — the labels being in range, neither the wrap of a negative
  index nor the clamp binds.
-/
import proofs.«423650_j2585570312816_3_alg».proof.Proof.RefRead
import proofs.«423650_j2585570312816_3_alg».proof.Proof.Spec
import Idealize.ShloMosaic.Lib.StableHlo.Predicate
import Idealize.ShloMosaic.Lib.ValueLayout

noncomputable section

open scoped BigOperators

namespace Cert.ReferenceIdeal.RefValue

open Cert.ReferenceIdeal Cert.ReferenceIdeal.Gen Cert.ReferenceIdeal.ReadP Idealize.ShloMosaic Idealize.SL.Sem Idealize.ShloMosaic.ValueIdx

section Stages

variable (x0 : S16384x1024.Idx → EReal) (x1 : S16384.Idx → BitVec 32) (x2 : S1000x1024.Idx → EReal) (x3 : S1000.Idx → EReal)

local notation "LG" => Club.logit (fun i k => x0 (ix2 i k)) (fun cl k => x2 (ix2 cl k)) (fun cl => x3 (ix1 cl))
local notation "MX" => Club.refMax (fun i k => x0 (ix2 i k)) (fun cl k => x2 (ix2 cl k)) (fun cl => x3 (ix1 cl))
local notation "LP" => Club.refLp (fun i k => x0 (ix2 i k)) (fun cl k => x2 (ix2 cl k)) (fun cl => x3 (ix1 cl))

/-- The logits: the contraction plus the bias. -/
theorem logit_apply (i : Fin 16384) (c : Fin 1000) :
    val_main_v3 (F := Ideal) x0 x2 x3 (ix2 i c) = LG i c := by
  rw [val_main_v3_apply, val_main_v0_apply, val_main_v2_apply, val_main_v1_apply, Ideal.addf_def]
  unfold Club.logit
  have e1 : ∀ k : Fin 1024, lidx_main_v0 (ix2 i c) k = ix2 i k := fun k =>
    funext fun a => Fin.ext (by match a with | ⟨0, _⟩ => rfl | ⟨1, _⟩ => rfl)
  have e2 : ∀ k : Fin 1024, ridx_main_v0 (ix2 i c) k = ix2 c k := fun k =>
    funext fun a => Fin.ext (by match a with | ⟨0, _⟩ => rfl | ⟨1, _⟩ => rfl)
  have e3 : idx_main_v1 (idx_main_v2 (ix2 i c)) = ix1 c :=
    funext fun a => Fin.ext (by match a with | ⟨0, _⟩ => rfl)
  simp only [e1, e2, e3]

/-- The word of negative infinity. -/
theorem negInf_word : Ideal.ofBits .f32 0xFF800000#32 = (⊥ : EReal) := by simp [Ideal.ofBits, Ideal.ieee]

/-- The reduction with the maximum over the classes: the fold of `max` from negative infinity. -/
theorem rowmax_apply (i : Fin 16384) :
    val_main_call0_v0 (F := Ideal) x0 x2 x3 (ix1 i)
      = (Finset.univ : Finset (Fin 1000)).fold max (⊥ : EReal) (fun c => LG i c) := by
  unfold val_main_call0_v0
  have h : S16384x1000.Reduces [1] S16384 := by decide
  rw [Host.reduce_eq_fold_single FloatOps.maximumf _ _ reducesTo_S16384x1000_S16384_d1 h h_S_ (ix1 i)]
  have hf : (val_main_v3 (F := Ideal) x0 x2 x3 ∘ h.lift (ix1 i)) = fun c : Fin 1000 => LG i c := by
    refine funext fun (c : Fin 1000) => ?_
    have e : h.lift (ix1 i) c = ix2 i c := funext fun a => Fin.ext (by match a with | ⟨0, _⟩ => rfl | ⟨1, _⟩ => rfl)
    exact (congrArg (val_main_v3 (F := Ideal) x0 x2 x3) e).trans (logit_apply x0 x2 x3 i c)
  rw [hf, val_main_call0_cst_apply]
  show Finset.fold max (Ideal.ofBits .f32 0xFF800000#32) _ _ = _
  rw [negInf_word]
  rfl

/-- The row maximum as the program takes it: once more against negative infinity. -/
theorem refMax_apply (i : Fin 16384) :
    val_main_call0_v2 (F := Ideal) x0 x2 x3 (ix1 i) = MX i := by
  rw [val_main_call0_v2_apply, val_main_call0_v1_apply, val_main_call0_cst_0_apply, rowmax_apply, Ideal.maximumf_def]
  show max (Ideal.ofBits .f32 0xFF800000#32) _ = _
  rw [negInf_word]
  rfl

/-- The shifted logits. -/
theorem shift_apply (i : Fin 16384) (c : Fin 1000) :
    val_main_call0_v5 (F := Ideal) x0 x2 x3 (ix2 i c) = LG i c - MX i := by
  rw [val_main_call0_v5_apply, val_main_call0_v4_apply, val_main_call0_v3_apply, Ideal.subf_def, logit_apply]
  have e : idx_main_call0_v3 (idx_main_call0_v4 (ix2 i c)) = ix1 i :=
    funext fun a => Fin.ext (by match a with | ⟨0, _⟩ => rfl)
  rw [e, refMax_apply]

/-- The logarithm of the sum of the shifted exponentials. -/
theorem lse_apply (i : Fin 16384) (c : Fin 1000) :
    val_main_call0_v10 (F := Ideal) x0 x2 x3 (ix2 i c) = Ideal.log (∑ c' : Fin 1000, Ideal.exp (LG i c' - MX i)) := by
  rw [val_main_call0_v10_apply, val_main_call0_v9_apply, val_main_call0_v8_apply, Ideal.hostUnary_log_def]
  have e : idx_main_call0_v8 (idx_main_call0_v10 (ix2 i c)) = ix1 i :=
    funext fun a => Fin.ext (by match a with | ⟨0, _⟩ => rfl)
  rw [e, val_main_call0_v7_apply, val_main_call0_cst_1_apply]
  show Ideal.log (Ideal.ofBits .f32 0x00000000#32 + _) = _
  rw [Ideal.ofBits_zero_f32, zero_add]
  refine congrArg Ideal.log (Finset.sum_congr rfl fun k _ => ?_)
  have e' : idx_main_call0_v7 (ix1 i) k = ix2 i k :=
    funext fun a => Fin.ext (by match a with | ⟨0, _⟩ => rfl | ⟨1, _⟩ => rfl)
  rw [e', val_main_call0_v6_apply, Ideal.hostUnary_exp_def, shift_apply]

/-- `log_softmax` of the logits. -/
theorem lp_apply (i : Fin 16384) (c : Fin 1000) :
    val_main_v4 (F := Ideal) x0 x2 x3 (ix2 i c) = LP i c := by
  rw [val_main_v4_apply, Ideal.subf_def, shift_apply, lse_apply]
  rfl

/-- A small non-negative word is not below zero, so the wrap of a negative index keeps it. -/
theorem wrap_id (n : ℕ) (hn : n < 2 ^ 31) (m : BitVec 32) :
    Scalar.select (IntOp.cmpi .slt (BitVec.ofNat 32 n) 0#32) m (BitVec.ofNat 32 n) = BitVec.ofNat 32 n := by
  have h : ¬ IntOp.cmpi .slt (BitVec.ofNat 32 n) 0#32 = 1#1 := by
    rw [StableHlo.Predicate.slt_iff_toNat (by rw [BitVec.toNat_ofNat]; omega) (by decide)]
    simp
  rw [eq_zero_of_ne_one h, select_zero]

/-- The row numbers, wrapped: the row numbers. -/
theorem iota_wrap (i : Fin 16384) : val_main_v10 (F := Ideal) (ix1 i) = BitVec.ofNat 32 i.val := by
  rw [val_main_v10_apply, val_main_v7_apply, val_main_v5_apply, val_main_v6_apply, val_main_c_apply]
  exact wrap_id i.val (by have := i.isLt; omega) _

section Labels
variable (l : Fin 16384 → Fin 1000) (hl : ∀ i, x1 (ix1 i) = BitVec.ofNat 32 (l i).val)
include hl

/-- The labels, wrapped: the labels. -/
theorem label_wrap (i : Fin 16384) : val_main_v15 (F := Ideal) x1 (ix1 i) = BitVec.ofNat 32 (l i).val := by
  rw [val_main_v15_apply, val_main_v12_apply, val_main_v11_apply, val_main_c_1_apply, hl]
  exact wrap_id (l i).val (by have := (l i).isLt; omega) _

/-- The labels, wrapped a second time for the second gather. -/
theorem label_wrap' (i : Fin 16384) : val_main_v29 (F := Ideal) x1 (ix1 i) = BitVec.ofNat 32 (l i).val := by
  rw [val_main_v29_apply, val_main_v26_apply, val_main_v25_apply, val_main_c_6_apply, hl]
  exact wrap_id (l i).val (by have := (l i).isLt; omega) _

omit hl in
/-- Column 0 of the index pairs: the row number. -/
theorem pair_fst (i : Fin 16384) : val_main_v18 (F := Ideal) x1 (ix2 i (0 : Fin 2)) = BitVec.ofNat 32 i.val := by
  unfold val_main_v18
  rw [concatenate_pair_apply_left (t := S16384x2) (s₁ := S16384x1) (s₂ := S16384x1) (1 : Fin 2) _ _
    concatenates_S16384x1_S16384x1_S16384x2_d1 (ix2 i (0 : Fin 2)) rfl
    (ix2 i (0 : Fin 1) : S16384x1.Idx) (fun b => by match b with | ⟨0, _⟩ => rfl | ⟨1, _⟩ => rfl)]
  rw [val_main_v16_apply]
  have e : idx_main_v16 (ix2 i (0 : Fin 1) : S16384x1.Idx) = ix1 i :=
    funext fun a => Fin.ext (by match a with | ⟨0, _⟩ => rfl)
  rw [e]
  exact iota_wrap i

/-- Column 1 of the index pairs: the label. -/
theorem pair_snd (i : Fin 16384) : val_main_v18 (F := Ideal) x1 (ix2 i (1 : Fin 2)) = BitVec.ofNat 32 (l i).val := by
  unfold val_main_v18
  rw [concatenate_pair_apply_right (t := S16384x2) (s₁ := S16384x1) (s₂ := S16384x1) (1 : Fin 2) _ _
    concatenates_S16384x1_S16384x1_S16384x2_d1 (ix2 i (1 : Fin 2)) rfl rfl
    (ix2 i (0 : Fin 1) : S16384x1.Idx) (fun b hb => by match b with | ⟨0, _⟩ => rfl | ⟨1, _⟩ => exact absurd rfl hb) rfl]
  rw [val_main_v17_apply]
  have e : idx_main_v17 (ix2 i (0 : Fin 1) : S16384x1.Idx) = ix1 i :=
    funext fun a => Fin.ext (by match a with | ⟨0, _⟩ => rfl)
  rw [e]
  exact label_wrap x1 l hl i

end Labels

/-- A gather of single entries of a matrix: the start indices are an [n × 2] table of (row, column) pairs, both operand axes
    collapsed and start-indexed, no offset or batching axes, the index vector on axis 1.  Result position `p` reads the
    matrix at pair `p`, each component read signed and clamped into its axis. -/
theorem gather_pair {α : Type} {N M n w : Nat} (d : GatherDims ⟨2, ![N, M]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, M]⟩ : Shape).Idx → α) (idx : IVec ⟨2, ![n, 2]⟩ w) (p : Fin n) (r : Fin N) (c : Fin M)
    (hr : min (idx (ix2 p (0 : Fin 2))).toInt.toNat (N - 1) = r.val)
    (hc : min (idx (ix2 p (1 : Fin 2))).toInt.toNat (M - 1) = c.val) :
    Host.gather d x idx (ix1 p) = x (ix2 r c) := by
  unfold Host.gather
  congr 1
  funext a
  apply Fin.ext
  have hb : a ∉ d.operandBatchingDims := by rw [hob]; exact List.not_mem_nil
  have hk : a ∉ d.sKept := by
    rw [GatherDims.mem_sKept, hcoll]
    match a with
    | ⟨0, _⟩ => simp
    | ⟨1, _⟩ => simp
  have hm : a ∈ d.startIndexMap := by
    rw [hsim]
    match a with
    | ⟨0, _⟩ => simp
    | ⟨1, _⟩ => simp
  have hsl : d.sliceSizes a = 1 := d.slice_collapsed a (by
    rw [hcoll]
    match a with
    | ⟨0, _⟩ => simp
    | ⟨1, _⟩ => simp)
  simp only [GatherDims.operandIdx, GatherDims.batchCoord_eq_zero _ _ _ hb, GatherDims.offCoord_eq_zero _ _ _ hk,
    Nat.add_zero, GatherDims.start, dif_pos hm]
  rw [hsl]
  have hlen : d.startIndexMap.length = 2 := by rw [hsim]; rfl
  have hsi : ∀ k : Fin d.startIndexMap.length, d.siIdx (ix1 p) k = ix2 p ⟨k.val, by have := k.isLt; omega⟩ := fun k => by
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      rfl
  rw [hsi]
  have key : ∀ (a : Fin 2) (h : List.idxOf a d.startIndexMap < 2),
      min (idx (ix2 p ⟨List.idxOf a d.startIndexMap, h⟩)).toInt.toNat ((![N, M] : Fin 2 → ℕ) a - 1)
        = ((ix2 r c : (⟨2, ![N, M]⟩ : Shape).Idx) a).val := fun a h => by
    match a, h with
    | ⟨0, _⟩, h =>
      refine (congrArg (fun q : Fin 2 => min (idx (ix2 p q)).toInt.toNat (N - 1)) (Fin.ext ?_)).trans hr
      show List.idxOf _ d.startIndexMap = 0
      rw [hsim]; simp
    | ⟨1, _⟩, h =>
      refine (congrArg (fun q : Fin 2 => min (idx (ix2 p q)).toInt.toNat (M - 1)) (Fin.ext ?_)).trans hc
      show List.idxOf _ d.startIndexMap = 1
      rw [hsim]; simp
  exact key a _

/-- A small word read signed and clamped into an axis it lies in is itself. -/
theorem clamp_small (n N : ℕ) (hn : n < N) (hN : N ≤ 2 ^ 31) : min (BitVec.ofNat 32 n).toInt.toNat (N - 1) = n := by
  rw [StableHlo.Predicate.toInt_ofNat_small n (by omega), Int.toNat_natCast]; omega

/-- The rank-1 indices are their coordinates. -/
def ixEquiv : Fin 16384 ≃ S16384.Idx where
  toFun i := ix1 i
  invFun j := j 0
  left_inv i := rfl
  right_inv j := (eq_ix1 j).symm

/-- A sum over the rank-1 indices is the sum over the coordinates. -/
theorem sum_idx (f : S16384.Idx → EReal) : ∑ j : S16384.Idx, f j = ∑ i : Fin 16384, f (ix1 i) :=
  (Fintype.sum_equiv ixEquiv _ _ (fun i => rfl)).symm

/-- The column means of `log_softmax`. -/
theorem colmean_apply (c : Fin 1000) :
    val_main_v24 (F := Ideal) x0 x2 x3 (ix1 c) = Ideal.div (∑ i : Fin 16384, LP i c) Club.nWord := by
  rw [val_main_v24_apply, val_main_v23_apply, val_main_cst_5_apply, Ideal.hostDivf_def, val_main_v22_apply,
    val_main_cst_4_apply]
  show Ideal.div (Ideal.ofBits .f32 0x00000000#32 + _) _ = _
  rw [Ideal.ofBits_zero_f32, zero_add]
  refine congrArg (fun s => Ideal.div s Club.nWord) (Finset.sum_congr rfl fun k _ => ?_)
  have e : idx_main_v22 (ix1 c) k = ix2 k c :=
    funext fun a => Fin.ext (by match a with | ⟨0, _⟩ => rfl | ⟨1, _⟩ => rfl)
  rw [e, lp_apply]

section Labels
variable (l : Fin 16384 → Fin 1000) (hl : ∀ i, x1 (ix1 i) = BitVec.ofNat 32 (l i).val)
include hl

/-- The first gather reads entry (i, label i): neither clamp binds. -/
theorem gather1_apply (i : Fin 16384) :
    val_main_v19 (F := Ideal) x0 x1 x2 x3 (ix1 i) = LP i (l i) := by
  unfold val_main_v19
  rw [gather_pair gather_S16384x1000_S16384x2_S16384_n_01_n_n_01_1_11 rfl rfl rfl rfl _ _ i i (l i)
    (by rw [pair_fst]; exact clamp_small _ 16384 i.isLt (by norm_num))
    (by rw [pair_snd x1 l hl]; exact clamp_small _ 1000 (l i).isLt (by norm_num)), lp_apply]

/-- The second gather reads the column mean at the label. -/
theorem gather2_apply (j : Fin 16384) :
    val_main_v31 (F := Ideal) x0 x1 x2 x3 (ix1 j) = val_main_v24 (F := Ideal) x0 x2 x3 (ix1 (l j)) := by
  unfold val_main_v31
  have e0 : (ix1 j : S16384.Idx) = Shape.Idx.ofFin j := funext fun a => Fin.ext (by match a with | ⟨0, _⟩ => rfl)
  rw [e0, StableHlo.Predicate.gather_take gather_S1000_S16384x1_S16384_n_0_n_n_0_1_1 rfl rfl rfl rfl _ _ j (by decide)]
  refine congrArg (val_main_v24 (F := Ideal) x0 x2 x3) (funext fun a => Fin.ext ?_)
  have e : idx_main_v30 (StableHlo.Predicate.ixP j : S16384x1.Idx) = ix1 j :=
    funext fun a => Fin.ext (by match a with | ⟨0, _⟩ => rfl)
  match a with
  | ⟨0, _⟩ =>
    show min (val_main_v30 (F := Ideal) x1 (StableHlo.Predicate.ixP j)).toInt.toNat (1000 - 1) = (l j).val
    rw [val_main_v30_apply, e, label_wrap' x1 l hl, clamp_small _ 1000 (l j).isLt (by norm_num)]

/-- The mean of the diagonal entries. -/
theorem mean1_apply :
    val_main_v21 (F := Ideal) x0 x1 x2 x3 ix0 = Ideal.div (∑ i : Fin 16384, LP i (l i)) Club.nWord := by
  rw [val_main_v21_apply, val_main_cst_3_apply, Ideal.hostDivf_def, val_main_v20_apply, val_main_cst_apply]
  show Ideal.div (Ideal.ofBits .f32 0x00000000#32 + _) _ = _
  rw [Ideal.ofBits_zero_f32, zero_add, sum_idx]
  refine congrArg (fun s => Ideal.div s Club.nWord) (Finset.sum_congr rfl fun i _ => ?_)
  exact gather1_apply x0 x1 x2 x3 l hl i

/-- The mean over the label columns of the column means. -/
theorem mean2_apply :
    val_main_v33 (F := Ideal) x0 x1 x2 x3 ix0
      = Ideal.div (∑ j : Fin 16384, Ideal.div (∑ i : Fin 16384, LP i (l j)) Club.nWord) Club.nWord := by
  rw [val_main_v33_apply, val_main_cst_9_apply, Ideal.hostDivf_def, val_main_v32_apply, val_main_cst_8_apply]
  show Ideal.div (Ideal.ofBits .f32 0x00000000#32 + _) _ = _
  rw [Ideal.ofBits_zero_f32, zero_add, sum_idx]
  refine congrArg (fun s => Ideal.div s Club.nWord) (Finset.sum_congr rfl fun j _ => ?_)
  rw [gather2_apply x0 x1 x2 x3 l hl j, colmean_apply]

end Labels

end Stages

/-- The last stage at its one index. -/
theorem ref_apply (x0 : S16384x1024.Idx → EReal) (x1 : S16384.Idx → BitVec 32) (x2 : S1000x1024.Idx → EReal) (x3 : S1000.Idx → EReal)
    (l : Fin 16384 → Fin 1000) (hl : ∀ i, x1 (ix1 i) = BitVec.ofNat 32 (l i).val) :
    val_main_v34 (F := Ideal) x0 x1 x2 x3 ix0
      = Club.refValue (fun i k => x0 (ix2 i k)) (fun cl k => x2 (ix2 cl k)) (fun cl => x3 (ix1 cl)) l := by
  rw [val_main_v34_apply, Ideal.subf_def, mean1_apply x0 x1 x2 x3 l hl, mean2_apply x0 x1 x2 x3 l hl]
  rfl

end Cert.ReferenceIdeal.RefValue

end
-- ==== Proof.KArgs.lean ====
/-
  The kernel program's four argument arrays, on one device, as functions of plain coordinates: the inputs `X i k` (16384 rows of
  1024 features), the label words `L i`, the weights `W c k` (1000 classes) and the bias `B c`.
-/
import proofs.«423650_j2585570312816_3_alg».proof.Proof.Gen.KernelIdeal
import proofs.«423650_j2585570312816_3_alg».proof.Proof.Spec
import Idealize.ShloMosaic.Lib.ValueIdx

noncomputable section

open scoped BigOperators

namespace Cert.KernelIdeal.Val

open Cert.KernelIdeal Idealize.ShloMosaic Idealize.SL.Sem Idealize.ShloMosaic.ValueIdx

variable (m : (ℓ : Loc nD τ sig) → Buf (Elt Ideal) ℓ)

/-- The inputs. -/
def argX (c : Dev nD) : Fin 16384 → Fin 1024 → EReal := fun i k =>
  (m ((c.tc : Thread nD τ).loc main_arg0) : S16384x1024.Idx → EReal) (ix2 i k)
/-- The label words. -/
def argL (c : Dev nD) : Fin 16384 → BitVec 32 := fun i =>
  (m ((c.tc : Thread nD τ).loc main_arg1) : S16384.Idx → BitVec 32) (ix1 i)
/-- The weights. -/
def argW (c : Dev nD) : Fin 1000 → Fin 1024 → EReal := fun cl k =>
  (m ((c.tc : Thread nD τ).loc main_arg2) : S1000x1024.Idx → EReal) (ix2 cl k)
/-- The bias. -/
def argB (c : Dev nD) : Fin 1000 → EReal := fun cl =>
  (m ((c.tc : Thread nD τ).loc main_arg3) : S1000.Idx → EReal) (ix1 cl)

end Cert.KernelIdeal.Val

end
-- ==== Proof.KHost.lean ====
/-
  What the host operations before the pallas_call leave in the three arrays it stages besides the inputs: the weights
  transposed and padded with 24 zero columns, the bias padded with zeros plus the mask (0 on a class column, -1e9 on a padded
  one), and the labels as a column.

  Each staged array is first written as ONE expression of whole arrays over the launch contents (the chain of host
  operations that produces it), and that expression is then read at an index given by coordinates: a transpose swaps the
  two coordinates, a pad reads its operand inside the operand's range and the padding value (the integer 0 converted, which
  is 0) outside, a format change is the identity on extended reals, and a cast between `[a]`, `[1, a]` and `[a, 1]` keeps
  the row-major position.
-/
import proofs.«423650_j2585570312816_3_alg».proof.Proof.Gen.KernelIdeal.Frame
import proofs.«423650_j2585570312816_3_alg».proof.Proof.KArgs
import Idealize.ShloMosaic.Lib.Pipeline.Value
import Idealize.ShloMosaic.Lib.ValueLayout
import Idealize.ShloMosaic.Lib.KernelVsHost
import Idealize.ShloMosaic.Lib.StableHlo.Predicate
import Idealize.ShloMosaic.Lib.IdealHost

noncomputable section

open scoped BigOperators

namespace Cert.KernelIdeal.Val

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## Facts over plain variables -/

/-- A vector of `a` entries cast to a column `[a, 1]` reads, at `(i, u)`, the operand at `i`: both have row-major
    position `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The signed comparison of a column number below 1024 with 1000 holds exactly when the number is below 1000: both words
    are small, so the signed order is the order of the numbers. -/
private theorem slt_thousand (n : ℕ) (hn : n < 1024) : IntOp.cmpi .slt (BitVec.ofNat 32 n) 1000#32 = 1#1 ↔ n < 1000 := by
  have h1 : (BitVec.ofNat 32 n).toNat = n := by rw [BitVec.toNat_ofNat]; exact Nat.mod_eq_of_lt (by omega)
  have h2 : (1000#32 : BitVec 32).toNat = 1000 := rfl
  rw [StableHlo.Predicate.slt_iff_toNat (by rw [h1]; omega) (by rw [h2]; omega), h1, h2]

/-- The mask vector at column `cc`: the select between the two splat constants on the bit "the column's number is below
    1000" is 0 on a class column and -1e9 on a padded one. -/
private theorem mask_apply (cc : Fin 1024) :
    (select
      (cmpi .slt (iotaInDim S1024 32 0) (broadcastInDim S1024 ![] bcast_S_S1024 (constantI S_ 32 1000#32)))
      (broadcastInDim S1024 ![] bcast_S_S1024 (constant (F := Ideal) S_ .f32 0x00000000#32))
      (broadcastInDim S1024 ![] bcast_S_S1024 (constant (F := Ideal) S_ .f32 0xCE6E6B28#32)) : S1024.Idx → EReal) (ix1 cc)
      = if cc.val < 1000 then 0 else Club.negBig := by
  rw [select_apply, broadcastInDim_scalar_apply, broadcastInDim_scalar_apply, constant_apply, constant_apply,
    Ideal.ofBits_zero_f32]
  have hb : (cmpi .slt (iotaInDim S1024 32 0) (broadcastInDim S1024 ![] bcast_S_S1024 (constantI S_ 32 1000#32)) : IVec S1024 1) (ix1 cc)
      = IntOp.cmpi .slt (BitVec.ofNat 32 cc.val) 1000#32 := by
    show IntOp.cmpi .slt (iotaInDim S1024 32 0 (ix1 cc)) (broadcastInDim S1024 ![] bcast_S_S1024 (constantI S_ 32 1000#32) (ix1 cc)) = _
    rw [broadcastInDim_scalar_apply, constantI_apply, iotaInDim_apply]
  rw [hb]
  by_cases h : cc.val < 1000
  · rw [if_pos h, (slt_thousand cc.val cc.isLt).mpr h, select_one]
  · rw [if_neg h, eq_zero_of_ne_one (fun h1 => h ((slt_thousand cc.val cc.isLt).mp h1)), select_zero]

/-- A vector of 1000 entries padded with 24 zeros, at column `cc`: the entry for a class column, 0 past the classes. -/
private theorem biasPad_apply (B : S1000.Idx → EReal) (cc : Fin 1024) :
    pad S1024 ![0] ![24] ![0] B (sitofp (F := Ideal) .f32 (constantI S_ 32 0#32)) pads_S1000_S1024_0240 h_S_ (ix1 cc)
      = if h : cc.val < 1000 then B (ix1 ⟨cc.val, h⟩) else 0 := by
  by_cases h : cc.val < 1000
  · rw [dif_pos h]
    exact pad_apply_of_inside ![0] ![24] ![0] _ _ pads_S1000_S1024_0240 h_S_ (ix1 cc) (ix1 (⟨cc.val, h⟩ : Fin 1000))
      (fun a => match a with | ⟨0, _⟩ => by show cc.val = 0 + cc.val * (0 + 1); omega)
  · rw [dif_neg h]
    rw [pad_apply_of_not_inside (s := S1000) (t := S1024) ![0] ![24] ![0] _ _ pads_S1000_S1024_0240 h_S_ (ix1 cc) (0 : Fin 1)
      (by
        show ¬(0 ≤ cc.val ∧ (cc.val - 0) % (0 + 1) = 0 ∧ (cc.val - 0) / (0 + 1) < 1000)
        omega)]
    rw [sitofp_apply, constantI_apply]
    exact sitofp_zero (φ := .f32)

/-- A `[1024, 1000]` matrix padded with 24 zero columns, at `(k, cc)`: the entry for a class column, 0 past the classes. -/
private theorem weightPad_apply (A : S1024x1000.Idx → EReal) (k cc : Fin 1024) :
    pad S1024x1024 ![0, 0] ![0, 24] ![0, 0] A (sitofp (F := Ideal) .f32 (constantI S_ 32 0#32))
        pads_S1024x1000_S1024x1024_000_0240 h_S_ (ix2 k cc)
      = if h : cc.val < 1000 then A (ix2 k ⟨cc.val, h⟩) else 0 := by
  by_cases h : cc.val < 1000
  · rw [dif_pos h]
    exact pad_apply_of_inside ![0, 0] ![0, 24] ![0, 0] _ _ pads_S1024x1000_S1024x1024_000_0240 h_S_ (ix2 k cc)
      (ix2 k (⟨cc.val, h⟩ : Fin 1000)) (fun a => match a with
        | ⟨0, _⟩ => by show k.val = 0 + k.val * (0 + 1); omega
        | ⟨1, _⟩ => by show cc.val = 0 + cc.val * (0 + 1); omega)
  · rw [dif_neg h]
    rw [pad_apply_of_not_inside (s := S1024x1000) (t := S1024x1024) ![0, 0] ![0, 24] ![0, 0] _ _
      pads_S1024x1000_S1024x1024_000_0240 h_S_ (ix2 k cc) (1 : Fin 2)
      (by
        show ¬(0 ≤ cc.val ∧ (cc.val - 0) % (0 + 1) = 0 ∧ (cc.val - 0) / (0 + 1) < 1000)
        omega)]
    rw [sitofp_apply, constantI_apply]
    exact sitofp_zero (φ := .f32)

/-! ## The staged arrays as whole-array expressions over the launch contents -/

/-- The staged weights: the launch weights transposed, padded with 24 zero columns, and narrowed to bf16. -/
private theorem V_wt_whole (c : Dev nD) :
    (V m c main_v2 : S1024x1024.Idx → EReal) =
      truncf .bf16
        (pad S1024x1024 ![0, 0] ![0, 24] ![0, 0]
          (transpose S1024x1000 [1, 0] (m ((c : Thread nD τ).loc main_arg2) : S1000x1024.Idx → EReal)
            transposes_S1000x1024_S1024x1000_1_0)
          (sitofp (F := Ideal) .f32 (constantI S_ 32 0#32)) pads_S1024x1000_S1024x1024_000_0240 h_S_)
        bitsLt_bf16_f32 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The staged bias-plus-mask row: the launch bias padded with 24 zeros, plus the mask vector, as a `[1, 1024]` row. -/
private theorem V_bm_whole (c : Dev nD) :
    (V m c main_v10 : S1x1024.Idx → EReal) =
      shapeCast S1x1024
        (addf
          (pad S1024 ![0] ![24] ![0] (m ((c : Thread nD τ).loc main_arg3) : S1000.Idx → EReal)
            (sitofp (F := Ideal) .f32 (constantI S_ 32 0#32)) pads_S1000_S1024_0240 h_S_)
          (select
            (cmpi .slt (iotaInDim S1024 32 0) (broadcastInDim S1024 ![] bcast_S_S1024 (constantI S_ 32 1000#32)))
            (broadcastInDim S1024 ![] bcast_S_S1024 (constant (F := Ideal) S_ .f32 0x00000000#32))
            (broadcastInDim S1024 ![] bcast_S_S1024 (constant (F := Ideal) S_ .f32 0xCE6E6B28#32))))
        shapeCasts_S1024_S1x1024 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The staged label column: the launch labels as a `[16384, 1]` column. -/
private theorem V_lab_whole (c : Dev nD) :
    (V m c main_v11 : S16384x1.Idx → BitVec 32) =
      shapeCast S16384x1 (m ((c : Thread nD τ).loc main_arg1) : S16384.Idx → BitVec 32) shapeCasts_S16384_S16384x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-! ## The staged arrays read by coordinates -/

/-- The staged weights: entry (k, c) is class c's weight at feature k, or 0 on a padded column. -/
theorem V_wt (c : Dev nD) (k cc : Fin 1024) :
    (V m c main_v2 : S1024x1024.Idx → EReal) (ix2 k cc) = Club.wPad (argW m c) k cc := by
  rw [V_wt_whole, truncf_apply, weightPad_apply]
  unfold Club.wPad
  by_cases h : cc.val < 1000
  · rw [dif_pos h, dif_pos h]
    exact transpose_ix2_apply _ _ k ⟨cc.val, h⟩
  · rw [dif_neg h, dif_neg h]

/-- The staged bias-plus-mask row. -/
theorem V_bm (c : Dev nD) (cc : Fin 1024) :
    (V m c main_v10 : S1x1024.Idx → EReal) (ix2 (0 : Fin 1) cc) = Club.bMask (argB m c) cc := by
  rw [V_bm_whole, shapeCast_a_1a_apply, addf_apply, mask_apply, biasPad_apply]
  rfl

/-- The staged label column. -/
theorem V_lab (c : Dev nD) (i : Fin 16384) :
    (V m c main_v11 : S16384x1.Idx → BitVec 32) (ix2 i (0 : Fin 1)) = argL m c i := by
  rw [V_lab_whole]
  exact shapeCast_a_a1_apply _ _ i 0

/-- The inputs are staged as launched. -/
theorem V_x (c : Dev nD) (i : Fin 16384) (k : Fin 1024) :
    (V m c main_arg0 : S16384x1024.Idx → EReal) (ix2 i k) = argX m c i k := by
  rw [V_main_arg0]
  rfl

end Cert.KernelIdeal.Val

end
-- ==== Proof.KBody.lean ====
/-
  The kernel body's one stored value, read at a column: it is `Club.tilePart` of the four loaded blocks — the matrix product
  plus the bias row, each row shifted by its maximum, the rows' log-sum-exps, the one-hot pick of each row's label column, and
  the column sums with the pick parked in column 1000.

  The body is cut into stages (`KBody.logits`, `shiftOf`, `lseCol`, `selCol`, `colRow`, `totOf`, `parkRow`), each a function of
  the values it reads; the stored value is their composition by unfolding (`KBody.pay_eq`), and each stage is read at an index
  given by coordinates from the layout operations, the reductions and the matrix product read at an index.
-/
import proofs.«423650_j2585570312816_3_alg».proof.Proof.Gen.KernelIdeal.Skeleton
import proofs.«423650_j2585570312816_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.SL.Sem Idealize.ShloMosaic.ValueIdx

namespace KBody

/-! ## Layout operations read at an index: the column forms -/

variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A one-element vector cast to `[1, 1]` reads its one element. -/
theorem shapeCast_1_11_apply (x : (⟨1, ![1]⟩ : Shape).Idx → α) (h : (⟨1, ![1]⟩ : Shape).ShapeCasts ⟨2, ![1, 1]⟩)
    (u u' : Fin 1) : shapeCast ⟨2, ![1, 1]⟩ x h (ix2 u u') = x (ix1 (0 : Fin 1)) :=
  shapeCast_apply x h _ _ (by
    have hu : u.val = 0 := by omega
    have hu' : u'.val = 0 := by omega
    rw [Shape.rowMajor_val_two, Shape.rowMajor_val_one]
    show 0 = u.val * 1 + u'.val
    rw [hu, hu'])

/-- A `[1, 1]` array broadcast to `[1, b]` reads its one element everywhere. -/
theorem broadcastTo_11_1b_apply {b : ℕ} (v : (⟨2, ![1, 1]⟩ : Shape).Idx → α) (h : (⟨2, ![1, 1]⟩ : Shape).Broadcasts ⟨2, ![1, b]⟩)
    (u : Fin 1) (c : Fin b) : broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

/-! ## Reductions along one axis read at an index -/

/-- The accumulator word of a maximum reduction is `-∞`. -/
theorem ofBits_negInf_f32 : FloatOps.ofBits (F := Ideal) .f32 0xFF800000#32 = (⊥ : EReal) := by
  simp [Ideal.ofBits, Ideal.ieee]

/-- A sum along the lanes of a matrix reads, at row `r`, the sum of the row. -/
theorem rowSum_apply (x : FVec Ideal S1024x1024 .f32) (r : Fin 1024) :
    multiReduction (F := Ideal) .add [1] S1024 x 0x00000000#32 reduces_S1024x1024_S1024 (.inl rfl) rfl (ix1 r)
      = ∑ c : Fin 1024, x (ix2 r c) := by
  refine (Ideal.multiReduction_add_single x 0x00000000#32 reduces_S1024x1024_S1024 (.inl rfl) rfl (ix1 r)).trans ?_
  refine Finset.sum_congr rfl fun c _ => congrArg x ?_
  funext a
  match a with
  | ⟨0, _⟩ => rfl
  | ⟨1, _⟩ => rfl

/-- A maximum along the lanes of a matrix reads, at row `r`, the fold of `max` from `-∞` over the row. -/
theorem rowMax_apply (x : FVec Ideal S1024x1024 .f32) (r : Fin 1024) :
    multiReduction (F := Ideal) .maximumf [1] S1024 x 0xFF800000#32 reduces_S1024x1024_S1024 (.inl rfl) rfl (ix1 r)
      = (Finset.univ : Finset (Fin 1024)).fold max (⊥ : EReal) (fun c => x (ix2 r c)) := by
  refine (Ideal.multiReduction_maximumf_single x 0xFF800000#32 reduces_S1024x1024_S1024 (.inl rfl) rfl (ix1 r)).trans ?_
  rw [ofBits_negInf_f32]
  refine congrArg (fun f => (Finset.univ : Finset (Fin 1024)).fold max (⊥ : EReal) f) ?_
  funext c
  refine congrArg x ?_
  funext a
  match a with
  | ⟨0, _⟩ => rfl
  | ⟨1, _⟩ => rfl

/-- A sum down the rows of a matrix reads, at column `c`, the sum of the column. -/
theorem colSum_apply (x : FVec Ideal S1024x1024 .f32) (c : Fin 1024) :
    multiReduction (F := Ideal) .add [0] S1024 x 0x00000000#32 reduces_S1024x1024_S1024_2 (.inl rfl) rfl (ix1 c)
      = ∑ r : Fin 1024, x (ix2 r c) := by
  refine (Ideal.multiReduction_add_single x 0x00000000#32 reduces_S1024x1024_S1024_2 (.inl rfl) rfl (ix1 c)).trans ?_
  refine Finset.sum_congr rfl fun r _ => congrArg x ?_
  funext a
  match a with
  | ⟨0, _⟩ => rfl
  | ⟨1, _⟩ => rfl

/-- A sum down a column vector reads, at its one index, the sum of the column. -/
theorem colTotal_apply (y : FVec Ideal S1024x1 .f32) (u : Fin 1) :
    multiReduction (F := Ideal) .add [0] S1 y 0x00000000#32 reduces_S1024x1_S1 (.inl rfl) rfl (ix1 u)
      = ∑ r : Fin 1024, y (ix2 r (0 : Fin 1)) := by
  refine (Ideal.multiReduction_add_single y 0x00000000#32 reduces_S1024x1_S1 (.inl rfl) rfl (ix1 u)).trans ?_
  refine Finset.sum_congr rfl fun r _ => congrArg y ?_
  funext a
  match a with
  | ⟨0, _⟩ => rfl
  | ⟨1, _⟩ => exact Fin.ext (by have := u.isLt; show u.val = 0; omega)

/-! ## The matrix product read at an index -/

theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into the zero accumulator reads, at `(r, c)`, the sum over `k` of the products. -/
theorem matmul_rc_apply (a : FVec Ideal S1024x1024 .bf16) (b : FVec Ideal S1024x1024 .bf16) (r c : Fin 1024) :
    matmul (F := Ideal) dot_S1024x1024_S1024x1024_S1024x1024_1_0_0_1_n_n none a b (constant (F := Ideal) S1024x1024 .f32 0x00000000#32) (ix2 r c)
      = ∑ k : Fin 1024, a (ix2 r k) * b (ix2 k c) := by
  refine (Ideal.matmul_constant_zero_apply dot_S1024x1024_S1024x1024_S1024x1024_1_0_0_1_n_n none a b (ix2 r c)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r c) ((contrEquiv1 dot_S1024x1024_S1024x1024_S1024x1024_1_0_0_1_n_n 1024 rfl rfl).symm k) = ix2 r k := funext fun ax => Fin.ext (by
    match ax with
    | ⟨0, _⟩ => exact lhs_dot_0 _ _
    | ⟨1, _⟩ => exact (lhs_dot_1 _ _).trans hk)
  have er : dot_S1024x1024_S1024x1024_S1024x1024_1_0_0_1_n_n.rhsIdx (ix2 r c) ((contrEquiv1 dot_S1024x1024_S1024x1024_S1024x1024_1_0_0_1_n_n 1024 rfl rfl).symm k) = ix2 k c := funext fun ax => Fin.ext (by
    match ax with
    | ⟨0, _⟩ => exact (rhs_dot_0 _ _).trans hk
    | ⟨1, _⟩ => exact rhs_dot_1 _ _)
  rw [el, er]

/-! ## The body's stages -/

/-- The logits as the body computes them: the matrix product into the zero accumulator plus the broadcast bias row. -/
def logits (v0 : Vec Ideal S1024x1024 .f32) (v2 : Vec Ideal S1024x1024 .bf16) (v5 : Vec Ideal S1x1024 .f32) : FVec Ideal S1024x1024 .f32 :=
  have v1 : FVec Ideal S1024x1024 .bf16 := truncf .bf16 v0 bitsLt_bf16_f32
  have v3 : FVec Ideal S1024x1024 .bf16 := shapeCast S1024x1024 v2 shapeCasts_S1024x1024_S1024x1024
  have cst : FVec Ideal S1024x1024 .f32 := constant S1024x1024 .f32 0x00000000#32
  have v4 : FVec Ideal S1024x1024 .f32 := matmul dot_S1024x1024_S1024x1024_S1024x1024_1_0_0_1_n_n none v1 v3 cst
  have v6 : FVec Ideal S1x1024 .f32 := shapeCast S1x1024 v5 shapeCasts_S1x1024_S1x1024
  have v7 : FVec Ideal S1024x1024 .f32 := broadcastTo S1024x1024 v6 broadcasts_S1x1024_S1024x1024
  addf v4 v7

/-- Each row of a matrix shifted by its maximum, as the body computes it. -/
def shiftOf (v8 : FVec Ideal S1024x1024 .f32) : FVec Ideal S1024x1024 .f32 :=
  have v9 : FVec Ideal S1024 .f32 := multiReduction .maximumf [1] S1024 v8 0xFF800000#32 reduces_S1024x1024_S1024 (.inl rfl) rfl
  have v10 : FVec Ideal S1024x1 .f32 := shapeCast S1024x1 v9 shapeCasts_S1024_S1024x1
  have v11 : FVec Ideal S1024x1024 .f32 := broadcastTo S1024x1024 v10 broadcasts_S1024x1_S1024x1024
  subf v8 v11

/-- The column of the rows' logarithms of summed exponentials. -/
def lseCol (v12 : FVec Ideal S1024x1024 .f32) : FVec Ideal S1024x1 .f32 :=
  have v13 : FVec Ideal S1024x1024 .f32 := exp v12
  have v14 : FVec Ideal S1024 .f32 := multiReduction .add [1] S1024 v13 0x00000000#32 reduces_S1024x1024_S1024 (.inl rfl) rfl
  have v15 : FVec Ideal S1024x1 .f32 := shapeCast S1024x1 v14 shapeCasts_S1024_S1024x1
  log v15

/-- The column of the rows' one-hot picks: each row summed over the lanes whose number is the row's label word. -/
def selCol (v12 : FVec Ideal S1024x1024 .f32) (v18 : Vec Ideal S1024x1 .i32) : FVec Ideal S1024x1 .f32 :=
  have v17 : IVec S1024x1024 32 := iota .tc S1024x1024 32 [1] iota_S1024x1024_d1_w32
  have v19 : IVec S1024x1 32 := shapeCast S1024x1 v18 shapeCasts_S1024x1_S1024x1
  have v20 : IVec S1024x1024 32 := broadcastTo S1024x1024 v19 broadcasts_S1024x1_S1024x1024
  have v21 : IVec S1024x1024 1 := cmpi .eq v17 v20
  have cst_9 : Ideal .f32 := Scalar.ofBits .f32 0x00000000#32
  have v22 : FVec Ideal S1024x1024 .f32 := broadcast S1024x1024 cst_9
  have v23 : FVec Ideal S1024x1024 .f32 := select v21 v12 v22
  have v24 : FVec Ideal S1024 .f32 := multiReduction .add [1] S1024 v23 0x00000000#32 reduces_S1024x1024_S1024 (.inl rfl) rfl
  shapeCast S1024x1 v24 shapeCasts_S1024_S1024x1

/-- The row of a matrix's column sums. -/
def colRow (v12 : FVec Ideal S1024x1024 .f32) : FVec Ideal S1x1024 .f32 :=
  have v26 : FVec Ideal S1024 .f32 := multiReduction .add [0] S1024 v12 0x00000000#32 reduces_S1024x1024_S1024_2 (.inl rfl) rfl
  shapeCast S1x1024 v26 shapeCasts_S1024_S1x1024

/-- A column's total, as a one-by-one array. -/
def totOf (v16 : FVec Ideal S1024x1 .f32) : FVec Ideal S1x1 .f32 :=
  have v28 : FVec Ideal S1 .f32 := multiReduction .add [0] S1 v16 0x00000000#32 reduces_S1024x1_S1 (.inl rfl) rfl
  shapeCast S1x1 v28 shapeCasts_S1_S1x1

/-- The stored row: the one-by-one value parked in column 1000 of a row. -/
def parkRow (v34 : FVec Ideal S1x1 .f32) (v31 : FVec Ideal S1x1024 .f32) : FVec Ideal S1x1x1024 .f32 :=
  have v35 : IVec S1x1024 32 := iota .tc S1x1024 32 [1] iota_S1x1024_d1_w32
  have v36 : IVec S1x1024 32 := broadcast S1x1024 1000#32
  have v37 : IVec S1x1024 1 := cmpi .eq v35 v36
  have v38 : FVec Ideal S1x1 .f32 := shapeCast S1x1 v34 shapeCasts_S1x1_S1x1
  have v39 : FVec Ideal S1x1024 .f32 := broadcastTo S1x1024 v38 broadcasts_S1x1_S1x1024
  have v40 : FVec Ideal S1x1024 .f32 := select v37 v39 v31
  shapeCast S1x1x1024 v40 shapeCasts_S1x1024_S1x1x1024

/-- The stored row from the shifted logits and the label column, as the body computes it. -/
def rowOf (v12 : FVec Ideal S1024x1024 .f32) (v18 : Vec Ideal S1024x1 .i32) : FVec Ideal S1x1x1024 .f32 :=
  have v29 : FVec Ideal S1x1 .f32 := totOf (lseCol v12)
  have v30 : FVec Ideal S1x1024 .f32 := broadcastTo S1x1024 v29 broadcasts_S1x1_S1x1024
  have v31 : FVec Ideal S1x1024 .f32 := subf (colRow v12) v30
  have v34 : FVec Ideal S1x1 .f32 := subf (totOf (selCol v12 v18)) v29
  parkRow v34 v31

/-- The body's stored value is those stages composed. -/
theorem pay_eq (v0 : Vec Ideal S1024x1024 .f32) (v2 : Vec Ideal S1024x1024 .bf16) (v5 : Vec Ideal S1x1024 .f32)
    (v18 : Vec Ideal S1024x1 .i32) : k0_pay1 (F := Ideal) v0 v2 v5 v18 = rowOf (shiftOf (logits v0 v2 v5)) v18 := rfl

/-! ## Each stage read at an index -/

/-- The logits at `(r, c)`: the row of inputs against the column of weights, plus the column's bias. -/
theorem logits_apply (v0 : Vec Ideal S1024x1024 .f32) (v2 : Vec Ideal S1024x1024 .bf16) (v5 : Vec Ideal S1x1024 .f32) (r c : Fin 1024) :
    logits v0 v2 v5 (ix2 r c) = (∑ k : Fin 1024, v0 (ix2 r k) * v2 (ix2 k c)) + v5 (ix2 (0 : Fin 1) c) := by
  unfold logits
  simp only [shapeCast_self]
  rw [addf_apply, matmul_rc_apply, broadcastTo_1b_ab_apply]
  rfl

/-- A matrix's row shifted by its maximum, at `(r, c)`. -/
theorem shiftOf_apply (x : FVec Ideal S1024x1024 .f32) (r c : Fin 1024) :
    shiftOf x (ix2 r c) = x (ix2 r c) - (Finset.univ : Finset (Fin 1024)).fold max (⊥ : EReal) (fun c' => x (ix2 r c')) := by
  unfold shiftOf
  simp only []
  rw [subf_apply, broadcastTo_a1_ab_apply, shapeCast_a_a1_apply, rowMax_apply]

/-- A select on the equality of two words is the `if` on the equality. -/
theorem select_cmpi_eq {w : ℕ} {β : Type} (a b : BitVec w) (x y : β) :
    Scalar.select (IntOp.cmpi .eq a b) x y = if a = b then x else y := by
  unfold Scalar.select
  by_cases h : a = b
  · rw [if_pos h, if_pos (by subst h; simp [IntOp.cmpi])]
  · have hb : (a == b) = false := by simpa using h
    rw [if_neg h, if_neg (by unfold IntOp.cmpi; show ¬ BitVec.ofBool (a == b) = 1#1; rw [hb]; decide)]

/-- The logarithm of a row's summed exponentials, at row `r`. -/
theorem lseCol_apply (y : FVec Ideal S1024x1024 .f32) (r : Fin 1024) (u : Fin 1) :
    lseCol y (ix2 r u) = Ideal.log (∑ c : Fin 1024, Ideal.exp (y (ix2 r c))) := by
  unfold lseCol
  show Ideal.log (shapeCast S1024x1 _ shapeCasts_S1024_S1024x1 (ix2 r u)) = _
  rw [shapeCast_a_a1_apply, rowSum_apply]
  rfl

/-- A row's one-hot pick, at row `r`. -/
theorem selCol_apply (y : FVec Ideal S1024x1024 .f32) (v18 : Vec Ideal S1024x1 .i32) (r : Fin 1024) (u : Fin 1) :
    selCol y v18 (ix2 r u)
      = ∑ c : Fin 1024, (if BitVec.ofNat 32 c.val = v18 (ix2 r (0 : Fin 1)) then y (ix2 r c) else 0) := by
  unfold selCol
  simp only [shapeCast_self]
  rw [shapeCast_a_a1_apply, rowSum_apply]
  refine Finset.sum_congr rfl fun c _ => ?_
  rw [select_apply, broadcast_apply]
  show Scalar.select (IntOp.cmpi .eq (iota .tc S1024x1024 32 [1] iota_S1024x1024_d1_w32 (ix2 r c))
      (broadcastTo S1024x1024 v18 broadcasts_S1024x1_S1024x1024 (ix2 r c))) (y (ix2 r c)) (Ideal.ofBits .f32 0x00000000#32) = _
  rw [iota_single_apply, broadcastTo_a1_ab_apply, select_cmpi_eq, Ideal.ofBits_zero_f32]

/-- A matrix's column sum, at column `c` of the row. -/
theorem colRow_apply (y : FVec Ideal S1024x1024 .f32) (u : Fin 1) (c : Fin 1024) :
    colRow y (ix2 u c) = ∑ r : Fin 1024, y (ix2 r c) := by
  unfold colRow
  simp only []
  rw [shapeCast_a_1a_apply, colSum_apply]

/-- A column's total. -/
theorem totOf_apply (z : FVec Ideal S1024x1 .f32) (u u' : Fin 1) :
    totOf z (ix2 u u') = ∑ r : Fin 1024, z (ix2 r (0 : Fin 1)) := by
  unfold totOf
  simp only []
  rw [shapeCast_1_11_apply, colTotal_apply]

/-- The stored row at column `cc`: the parked value in column 1000, the row elsewhere. -/
theorem parkRow_apply (a : FVec Ideal S1x1 .f32) (b : FVec Ideal S1x1024 .f32) (cc : Fin 1024) :
    parkRow a b (ix3 (0 : Fin 1) (0 : Fin 1) cc)
      = if cc.val = 1000 then a (ix2 (0 : Fin 1) (0 : Fin 1)) else b (ix2 (0 : Fin 1) cc) := by
  unfold parkRow
  simp only [shapeCast_self]
  rw [shapeCast_ab_1ab_apply, select_apply, broadcastTo_11_1b_apply]
  show Scalar.select (IntOp.cmpi .eq (iota .tc S1x1024 32 [1] iota_S1x1024_d1_w32 (ix2 (0 : Fin 1) cc)) 1000#32) _ _ = _
  rw [iota_single_apply, select_cmpi_eq]
  show (if BitVec.ofNat 32 cc.val = 1000#32 then _ else _) = _
  have hcc := cc.isLt
  by_cases h : cc.val = 1000
  · rw [if_pos h, if_pos (by rw [h])]
  · rw [if_neg h, if_neg (fun e => h (by
      have := congrArg BitVec.toNat e
      simp only [BitVec.toNat_ofNat] at this
      omega))]

end KBody

/-- The stored row at column `cc`, from the four loaded blocks. -/
theorem pay_apply (v0 : Vec Ideal S1024x1024 .f32) (v2 : Vec Ideal S1024x1024 .bf16) (v5 : Vec Ideal S1x1024 .f32)
    (v18 : Vec Ideal S1024x1 .i32) (cc : Fin 1024) :
    k0_pay1 (F := Ideal) v0 v2 v5 v18 (ix3 (0 : Fin 1) (0 : Fin 1) cc)
      = Club.tilePart (fun r k => v0 (ix2 r k)) (fun k c => v2 (ix2 k c)) (fun c => v5 (ix2 (0 : Fin 1) c))
          (fun r => v18 (ix2 r (0 : Fin 1))) cc := by
  rw [KBody.pay_eq]
  unfold KBody.rowOf
  rw [KBody.parkRow_apply]
  unfold Club.tilePart
  have hS : ∀ r c : Fin 1024, KBody.shiftOf (KBody.logits v0 v2 v5) (ix2 r c)
      = Club.tShift (fun r k => v0 (ix2 r k)) (fun k c => v2 (ix2 k c)) (fun c => v5 (ix2 (0 : Fin 1) c)) r c := by
    intro r c
    rw [KBody.shiftOf_apply]
    unfold Club.tShift Club.tMax Club.tLogit
    simp only [KBody.logits_apply]
  have hL : (∑ r : Fin 1024, KBody.lseCol (KBody.shiftOf (KBody.logits v0 v2 v5)) (ix2 r (0 : Fin 1)))
      = ∑ r : Fin 1024, Club.tLse (fun r k => v0 (ix2 r k)) (fun k c => v2 (ix2 k c)) (fun c => v5 (ix2 (0 : Fin 1) c)) r := by
    refine Finset.sum_congr rfl fun r _ => ?_
    rw [KBody.lseCol_apply]
    unfold Club.tLse
    simp only [hS]
  by_cases h : cc.val = 1000
  · rw [if_pos h, if_pos h, subf_apply, KBody.totOf_apply, KBody.totOf_apply, hL]
    refine congrArg (· - _) ?_
    refine Finset.sum_congr rfl fun r _ => ?_
    rw [KBody.selCol_apply]
    unfold Club.tSel
    simp only [hS]
  · rw [if_neg h, if_neg h, subf_apply, KBody.colRow_apply, KBody.broadcastTo_11_1b_apply, KBody.totOf_apply, hL]
    simp only [hS]

end Cert.KernelIdeal.Val

end
-- ==== Proof.KBlocks.lean ====
/-
  The array the pallas_call writes, after the run: row `t` of its 16 rows is what grid point `t` stored, namely
  `Club.kerPart` of the arguments at tile `t` — the point's input block is rows 1024 t … 1024 t + 1023 of the inputs and of the
  label column, the weight and bias blocks are the whole staged arrays, and the 16 one-row blocks tile the output.
-/
import proofs.«423650_j2585570312816_3_alg».proof.Proof.KHost
import proofs.«423650_j2585570312816_3_alg».proof.Proof.KBody

noncomputable section

open scoped BigOperators

namespace Cert.KernelIdeal.Val

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

namespace Blocks

/-! ## The block indices at a grid point

Grid point `t` takes block (t, 0) of the inputs and of the label column, block (0, 0) of the staged weights and of the
bias-plus-mask row, and writes block (t, 0, 0) of the output. -/

/-- The input window's block index at point `t` is (t, 0). -/
theorem idx0 : ∀ t : Fin cfg0.N, win0_0.index t (0 : Fin 2) = t.val ∧ win0_0.index t (1 : Fin 2) = 0 :=
  (by decide +kernel : ∀ t : Fin grid0.N, _)
/-- The weight window's block index is (0, 0) at every point. -/
theorem idx1 : ∀ t : Fin cfg0.N, win0_1.index t (0 : Fin 2) = 0 ∧ win0_1.index t (1 : Fin 2) = 0 :=
  (by decide +kernel : ∀ t : Fin grid0.N, _)
/-- The bias-plus-mask window's block index is (0, 0) at every point. -/
theorem idx2 : ∀ t : Fin cfg0.N, win0_2.index t (0 : Fin 2) = 0 ∧ win0_2.index t (1 : Fin 2) = 0 :=
  (by decide +kernel : ∀ t : Fin grid0.N, _)
/-- The label window's block index at point `t` is (t, 0). -/
theorem idx3 : ∀ t : Fin cfg0.N, win0_3.index t (0 : Fin 2) = t.val ∧ win0_3.index t (1 : Fin 2) = 0 :=
  (by decide +kernel : ∀ t : Fin grid0.N, _)
/-- The output window's block index at point `t` is (t, 0, 0). -/
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The grid has 16 points. -/
theorem tlt (t : Fin cfg0.N) : t.val < 16 := by have := t.isLt; have h : cfg0.N = 16 := N_0; omega

/-! ## The four input blocks at a point, as rows of the arguments

An element of a block sits in its array at coordinate (block index × block size + coordinate inside the block) on every axis. -/

/-- The block of inputs at point `t`. -/
abbrev xblk (c : Dev nD) (t : Fin cfg0.N) : Vec Ideal S1024x1024 .f32 := iblk m c 0 t
/-- The block of staged weights at point `t`. -/
abbrev wblk (c : Dev nD) (t : Fin cfg0.N) : Vec Ideal S1024x1024 .bf16 := iblk m c 1 t
/-- The block of the bias-plus-mask row at point `t`. -/
abbrev bblk (c : Dev nD) (t : Fin cfg0.N) : Vec Ideal S1x1024 .f32 := iblk m c 2 t
/-- The block of the label column at point `t`. -/
abbrev lblk (c : Dev nD) (t : Fin cfg0.N) : Vec Ideal S1024x1 .i32 := iblk m c 3 t

/-- Row `r` of the input block at point `t` is row `1024 t + r` of the inputs. -/
theorem xblk_apply (c : Dev nD) (t : Fin cfg0.N) (r k : Fin 1024) :
    xblk m c t (ix2 r k) = argX m c (Club.row ⟨t.val, tlt t⟩ r) k := by
  rw [← V_x]
  show V m c main_arg0 (((cfg0.win 0).blk t).view.emb (ix2 r k)) = V m c main_arg0 _
  congr 1
  funext a
  apply Fin.ext
  obtain ⟨e0, e1⟩ := idx0 t
  match a with
  | ⟨0, _⟩ => show win0_0.index t (0 : Fin 2) * 1024 + 1 * r.val = 1024 * t.val + r.val; omega
  | ⟨1, _⟩ => show win0_0.index t (1 : Fin 2) * 1024 + 1 * k.val = k.val; omega

/-- The weight block at every point is the whole padded, transposed weight array. -/
theorem wblk_apply (c : Dev nD) (t : Fin cfg0.N) (k cc : Fin 1024) :
    wblk m c t (ix2 k cc) = Club.wPad (argW m c) k cc := by
  rw [← V_wt]
  show V m c main_v2 (((cfg0.win 1).blk t).view.emb (ix2 k cc)) = V m c main_v2 _
  congr 1
  funext a
  apply Fin.ext
  obtain ⟨e0, e1⟩ := idx1 t
  match a with
  | ⟨0, _⟩ => show win0_1.index t (0 : Fin 2) * 1024 + 1 * k.val = k.val; omega
  | ⟨1, _⟩ => show win0_1.index t (1 : Fin 2) * 1024 + 1 * cc.val = cc.val; omega

/-- The bias-plus-mask block at every point is the whole row. -/
theorem bblk_apply (c : Dev nD) (t : Fin cfg0.N) (cc : Fin 1024) :
    bblk m c t (ix2 (0 : Fin 1) cc) = Club.bMask (argB m c) cc := by
  rw [← V_bm]
  show V m c main_v10 (((cfg0.win 2).blk t).view.emb (ix2 (0 : Fin 1) cc)) = V m c main_v10 _
  congr 1
  funext a
  apply Fin.ext
  obtain ⟨e0, e1⟩ := idx2 t
  match a with
  | ⟨0, _⟩ => show win0_2.index t (0 : Fin 2) * 1 + 1 * (0 : Fin 1).val = (0 : Fin 1).val; omega
  | ⟨1, _⟩ => show win0_2.index t (1 : Fin 2) * 1024 + 1 * cc.val = cc.val; omega

/-- Entry `r` of the label block at point `t` is the label word of row `1024 t + r`. -/
theorem lblk_apply (c : Dev nD) (t : Fin cfg0.N) (r : Fin 1024) :
    lblk m c t (ix2 r (0 : Fin 1)) = argL m c (Club.row ⟨t.val, tlt t⟩ r) := by
  rw [← V_lab]
  show V m c main_v11 (((cfg0.win 3).blk t).view.emb (ix2 r (0 : Fin 1))) = V m c main_v11 _
  congr 1
  funext a
  apply Fin.ext
  obtain ⟨e0, e1⟩ := idx3 t
  match a with
  | ⟨0, _⟩ => show win0_3.index t (0 : Fin 2) * 1024 + 1 * r.val = 1024 * t.val + r.val; omega
  | ⟨1, _⟩ => show win0_3.index t (1 : Fin 2) * 1 + 1 * (0 : Fin 1).val = (0 : Fin 1).val; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The whole written array as one function of the arguments: entry (t, ·, cc) is tile `t`'s output row at column `cc`. -/
abbrev G (c : Dev nD) : S16x1x1024.Idx → EReal := fun j =>
  Club.kerPart (argX m c) (argW m c) (argB m c) (argL m c) ⟨(j 0).val, (j 0).isLt⟩ (j 2)

/-- The body's result at point `t`, column `cc`: tile `t`'s output row there. -/
theorem point_eq (c : Dev nD) (t : Fin cfg0.N) (cc : Fin 1024) :
    k0_pay1 (F := Ideal) (xblk m c t) (wblk m c t) (bblk m c t) (lblk m c t) (ix3 (0 : Fin 1) (0 : Fin 1) cc)
      = Club.kerPart (argX m c) (argW m c) (argB m c) (argL m c) ⟨t.val, tlt t⟩ cc := by
  refine (pay_apply (xblk m c t) (wblk m c t) (bblk m c t) (lblk m c t) cc).trans ?_
  have hx : (fun r k => xblk m c t (ix2 r k)) = fun r k => argX m c (Club.row ⟨t.val, tlt t⟩ r) k :=
    funext fun r => funext fun k => xblk_apply m c t r k
  have hw : (fun k cl => wblk m c t (ix2 k cl)) = Club.wPad (argW m c) :=
    funext fun k => funext fun cl => wblk_apply m c t k cl
  have hb : (fun cl => bblk m c t (ix2 (0 : Fin 1) cl)) = Club.bMask (argB m c) :=
    funext fun cl => bblk_apply m c t cl
  have hl : (fun r => lblk m c t (ix2 r (0 : Fin 1))) = fun r => argL m c (Club.row ⟨t.val, tlt t⟩ r) :=
    funext fun r => lblk_apply m c t r
  rw [hx, hw, hb, hl]
  rfl

/-- The body's result at point `t`, at any index of the output block, is `G` at that index's place in the array:
    the block is row `t` of the array, column for column. -/
theorem flushed_point (c : Dev nD) (t : Fin cfg0.N) (y : S1x1x1024.Idx) :
    k0_pay1 (F := Ideal) (xblk m c t) (wblk m c t) (bblk m c t) (lblk m c t) y
      = G m c (((cfg0.win 4).blk t).view.emb y) := by
  obtain ⟨y0, y1, y2, rfl⟩ : ∃ (y0 : Fin 1) (y1 : Fin 1) (y2 : Fin 1024), y = ix3 y0 y1 y2 := ⟨y 0, y 1, y 2, eq_ix3 y⟩
  obtain rfl : y0 = 0 := Subsingleton.elim _ _
  obtain rfl : y1 = 0 := Subsingleton.elim _ _
  rw [point_eq]
  obtain ⟨e0, e1, e2⟩ := idx4 t
  have h0 : ((((cfg0.win 4).blk t).view.emb (ix3 (0 : Fin 1) (0 : Fin 1) y2)) 0).val = t.val := by
    show win0_4.index t (0 : Fin 3) * 1 + 1 * (0 : Fin 1).val = t.val
    omega
  have h2 : ((((cfg0.win 4).blk t).view.emb (ix3 (0 : Fin 1) (0 : Fin 1) y2)) 2) = y2 := by
    apply Fin.ext
    show win0_4.index t (2 : Fin 3) * 1024 + 1 * y2.val = y2.val
    omega
  show _ = Club.kerPart _ _ _ _ ⟨((((cfg0.win 4).blk t).view.emb (ix3 (0 : Fin 1) (0 : Fin 1) y2)) 0).val, _⟩ ((((cfg0.win 4).blk t).view.emb (ix3 (0 : Fin 1) (0 : Fin 1) y2)) 2)
  rw [h2]
  congr 1
  exact Fin.ext h0.symm

/-- What point `t` writes back is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz3]
  simp only [View.ld_unit_zero (S := S1024x1024) hz2, View.ld_unit_zero (S := S1x1024) hz2, View.ld_unit_zero (S := S1024x1) hz2]
  funext y
  exact flushed_point m c t y

/-! ## The 16 one-row blocks tile the array -/

/-- An index of the array is in point `t`'s block iff each coordinate is in the block's range on its axis. -/
theorem mem_blk (t : Fin cfg0.N) (i : S16x1x1024.Idx) :
    i ∈ ((cfg0.win 4).blk t).view.set ↔ ∀ a : Fin 3, win0_4.index t a * S1x1x1024.size a ≤ (i a).val ∧ (i a).val < win0_4.index t a * S1x1x1024.size a + S1x1x1024.size a := by
  show i ∈ ((View.whole main_v12).slice (win0_4.rect t)).set ↔ _
  rw [View.set_slice_whole, Rect.mem_set_unit]
  exact Iff.rfl

/-- Every index of the array is in the block of the point numbered by its row. -/
theorem cover (i : S16x1x1024.Idx) :
    ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 1024 := (i 2).isLt
  have hN : cfg0.N = 16 := N_0
  obtain ⟨t, ht⟩ : ∃ t : Fin cfg0.N, t.val = (i 0).val := ⟨⟨(i 0).val, by omega⟩, rfl⟩
  refine ⟨t, flush0_4 t, ?_⟩
  rw [mem_blk]
  obtain ⟨e0, e1, e2⟩ := idx4 t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1024 ≤ (i 2).val ∧ (i 2).val < win0_4.index t (2 : Fin 3) * 1024 + 1024; omega

/-- So the array ends holding `G`. -/
theorem final (c : Dev nD) : (dats m 0 c).arrAt 4 cfg0.N = G m c :=
  (dats m 0 c).arrAt_eq_of_cover 4 (G m c) (fun t _ => flushed_eq m c t) cover

end Blocks

/-- The written array at (t, 0, cc). -/
theorem arr_apply (c : Dev nD) (t : Fin 16) (cc : Fin 1024) :
    ((dats m 0 c).arrAt 4 cfg0.N : S16x1x1024.Idx → EReal) (ix3 t (0 : Fin 1) cc)
      = Club.kerPart (argX m c) (argW m c) (argB m c) (argL m c) t cc := by
  rw [Blocks.final]

end Cert.KernelIdeal.Val

end
-- ==== Proof.KTail.lean ====
/-
  The host operations after the pallas_call, applied to the array it wrote: the 16 rows are added up column by column;
  column 1000 over 16384 is the first term; the column means are gathered at the labels (in range, so neither the wrap of a
  negative index nor the clamp binds), averaged, and subtracted.
-/
import proofs.«423650_j2585570312816_3_alg».proof.Proof.Gen.KernelIdeal.Frame
import proofs.«423650_j2585570312816_3_alg».proof.Proof.KArgs
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KernelIdeal.Val

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The column sums -/

/-- A [16,1,1024] array cast to [16,1024] reads, at (t, k), the operand at (t, 0, k). -/
theorem cast_rows_apply (A : S16x1x1024.Idx → EReal) (t : Fin 16) (k : Fin 1024) :
    shapeCast S16x1024 A shapeCasts_S16x1x1024_S16x1024 (ix2 t k) = A (ix3 t (0 : Fin 1) k) :=
  shapeCast_apply A _ _ _ (by
    rw [Shape.rowMajor_val_three, Shape.rowMajor_val_two]
    show (t.val * 1 + 0) * 1024 + k.val = t.val * 1024 + k.val
    omega)

/-- The 16 rows of the written array added up, column by column. -/
def colsumV (A : FVec Ideal S16x1x1024 .f32) : FVec Ideal S1024 .f32 :=
  Host.reduceAdd (shapeCast S16x1024 A shapeCasts_S16x1x1024_S16x1024) (constant S_ .f32 0x00000000#32)
    reducesTo_S16x1024_S1024_d0 h_S_

/-- At column `k` it is the sum over the rows. -/
theorem colsumV_apply (A : FVec Ideal S16x1x1024 .f32) (k : Fin 1024) :
    colsumV A (ix1 k) = ∑ t : Fin 16, A (ix3 t (0 : Fin 1) k) := by
  unfold colsumV
  simp only [Host.reduceAdd, Ideal.hostReduceAdd_def]
  rw [Ideal.hostReduceAdd_single reducesTo_S16x1024_S1024_d0 (by decide), constant_apply, Ideal.ofBits_zero_f32, zero_add]
  refine Finset.sum_congr rfl fun t _ => ?_
  exact (congrArg _ (funext fun a => Fin.ext (by match a with | ⟨0, _⟩ => rfl | ⟨1, _⟩ => rfl))).trans (cast_rows_apply A t k)

/-! ## The gathered index -/

/-- The label words with a negative one wrapped by 1024: the column the gather reads its positions from. -/
def wrapV (lab : IVec S16384 32) : IVec S16384 32 :=
  select (cmpi .slt lab (broadcastInDim S16384 ![] bcast_S_S16384 (constantI S_ 32 0#32)))
    (addi lab (broadcastInDim S16384 ![] bcast_S_S16384 (constantI S_ 32 1024#32))) lab

/-- The word of a class number below 1000 is not negative: the wrap leaves it. -/
theorem wrapV_apply (lab : IVec S16384 32) (i : Fin 16384) (n : ℕ) (hn : n < 1000) (h : lab (ix1 i) = BitVec.ofNat 32 n) :
    wrapV lab (ix1 i) = BitVec.ofNat 32 n := by
  have hc : cmpi .slt lab (broadcastInDim S16384 ![] bcast_S_S16384 (constantI S_ 32 0#32)) (ix1 i) = 0#1 := by
    apply eq_zero_of_ne_one
    show ¬ IntOp.cmpi .slt (lab (ix1 i)) (broadcastInDim S16384 ![] bcast_S_S16384 (constantI S_ 32 0#32) (ix1 i)) = 1#1
    rw [StableHlo.Predicate.bcast_scalar bcast_S_S16384 h_S_, h]
    show ¬ IntOp.cmpi .slt (BitVec.ofNat 32 n) (0#32) = 1#1
    have hlt : (BitVec.ofNat 32 n).toNat < 2 ^ 31 := by rw [BitVec.toNat_ofNat]; omega
    rw [StableHlo.Predicate.slt_iff_toNat hlt (by decide)]
    exact Nat.not_lt_zero _
  unfold wrapV
  rw [select_apply, hc, select_zero]
  exact h

/-- The take at row `j` reads the table at the position row `j` of the index column names, when that is in the table. -/
theorem gather_col_apply (x : FVec Ideal S1024 .f32) (idx : IVec S16384 32) (j : Fin 16384) (n : ℕ) (hn : n < 1024)
    (h : idx (ix1 j) = BitVec.ofNat 32 n) :
    Host.gather gather_S1024_S16384x1_S16384_n_0_n_n_0_1_1 x (broadcastInDim S16384x1 ![0] bcast_S16384_S16384x1_0 idx) (ix1 j)
      = x (ix1 (⟨n, hn⟩ : Fin 1024)) := by
  have e1 : (ix1 j : S16384.Idx) = Shape.Idx.ofFin j := funext fun a => by match a with | ⟨0, _⟩ => rfl
  rw [e1, StableHlo.Predicate.gather_take gather_S1024_S16384x1_S16384_n_0_n_n_0_1_1 rfl rfl rfl rfl x _ j (by decide)]
  refine congrArg x (funext fun a => Fin.ext ?_)
  obtain rfl : a = 0 := Subsingleton.elim _ _
  show min ((broadcastInDim S16384x1 ![0] bcast_S16384_S16384x1_0 idx (StableHlo.Predicate.ixP j)).toInt.toNat) (1024 - 1) = n
  rw [StableHlo.Predicate.bcast_col1, ← e1, h, StableHlo.Predicate.toInt_ofNat_small n (by omega), Int.toNat_natCast]
  omega

/-! ## The whole tail -/

/-- A rank-1 index set is its coordinate's range. -/
def idxEquiv1 (n : ℕ) : (⟨1, ![n]⟩ : Shape).Idx ≃ Fin n where
  toFun i := i 0
  invFun := ix1
  left_inv i := (eq_ix1 i).symm
  right_inv _ := rfl

/-- The host operations after the region, as a function of the written array and the label words. -/
def tailFn (A : FVec Ideal S16x1x1024 .f32) (lab : IVec S16384 32) : FVec Ideal S_ .f32 :=
  subf
    (Host.divf (shapeCast S_ (extractStridedSlice S1 ![1000] (colsumV A) slices_S1024_S1_1000) shapeCasts_S1_S_)
      (constant S_ .f32 0x46800000#32))
    (Host.divf
      (Host.reduceAdd
        (Host.gather gather_S1024_S16384x1_S16384_n_0_n_n_0_1_1
          (Host.divf (colsumV A) (broadcastInDim S1024 ![] bcast_S_S1024 (constant S_ .f32 0x46800000#32)))
          (broadcastInDim S16384x1 ![0] bcast_S16384_S16384x1_0 (wrapV lab)))
        (constant S_ .f32 0x00000000#32) reducesTo_S16384_S_d0 h_S_)
      (constant S_ .f32 0x46800000#32))

/-- The host's quotient at an index is the quotient of the elements. -/
theorem hdiv_apply {s : Shape} (a b : FVec Ideal s .f32) (i : s.Idx) : Host.divf a b i = Ideal.div (a i) (b i) := rfl

/-- The first term: column 1000 of the sums. -/
theorem tail_fst (A : FVec Ideal S16x1x1024 .f32) :
    shapeCast S_ (extractStridedSlice S1 ![1000] (colsumV A) slices_S1024_S1_1000) shapeCasts_S1_S_ ix0
      = ∑ t : Fin 16, A (ix3 t (0 : Fin 1) (⟨1000, by omega⟩ : Fin 1024)) := by
  rw [shapeCast_apply _ shapeCasts_S1_S_ ix0 (ix1 (0 : Fin 1)) (by
      rw [Shape.rowMajor_val_one]; exact (Shape.rowMajorPi_zero _ _).symm),
    extractStridedSlice_apply ![1000] _ slices_S1024_S1_1000 (ix1 (0 : Fin 1)) (ix1 (⟨1000, by omega⟩ : Fin 1024))
      (fun a => by match a with | ⟨0, _⟩ => rfl),
    colsumV_apply]

/-- The mean of a column, gathered at a label in range. -/
theorem tail_gathered (A : FVec Ideal S16x1x1024 .f32) (lab : IVec S16384 32) (j : Fin 16384) (n : ℕ) (hn : n < 1000)
    (h : lab (ix1 j) = BitVec.ofNat 32 n) :
    Host.gather gather_S1024_S16384x1_S16384_n_0_n_n_0_1_1
        (Host.divf (colsumV A) (broadcastInDim S1024 ![] bcast_S_S1024 (constant (F := Ideal) S_ .f32 0x46800000#32)))
        (broadcastInDim S16384x1 ![0] bcast_S16384_S16384x1_0 (wrapV lab)) (ix1 j)
      = Ideal.div (∑ t : Fin 16, A (ix3 t (0 : Fin 1) (⟨n, by omega⟩ : Fin 1024))) Club.nWord := by
  rw [gather_col_apply _ (wrapV lab) j n (by omega) (wrapV_apply lab j n hn h), hdiv_apply, colsumV_apply,
    StableHlo.Predicate.bcast_scalar bcast_S_S1024 h_S_, constant_apply]

/-- The second term before its division: the gathered means added up over the rows. -/
theorem tail_snd (A : FVec Ideal S16x1x1024 .f32) (lab : IVec S16384 32) (l : Fin 16384 → Fin 1000)
    (hl : ∀ i, lab (ix1 i) = BitVec.ofNat 32 (l i).val) :
    Host.reduceAdd
        (Host.gather gather_S1024_S16384x1_S16384_n_0_n_n_0_1_1
          (Host.divf (colsumV A) (broadcastInDim S1024 ![] bcast_S_S1024 (constant (F := Ideal) S_ .f32 0x46800000#32)))
          (broadcastInDim S16384x1 ![0] bcast_S16384_S16384x1_0 (wrapV lab)))
        (constant (F := Ideal) S_ .f32 0x00000000#32) reducesTo_S16384_S_d0 h_S_ ix0
      = ∑ j : Fin 16384, Ideal.div (∑ t : Fin 16, A
            (ix3 t (0 : Fin 1) (⟨(l j).val, by have := (l j).isLt; omega⟩ : Fin 1024))) Club.nWord := by
  simp only [Host.reduceAdd, Ideal.hostReduceAdd_def]
  rw [Ideal.hostReduceAdd_total reducesTo_S16384_S_d0 (fun b => b.elim0), constant_apply, Ideal.ofBits_zero_f32, zero_add,
    ← Equiv.sum_comp (idxEquiv1 16384).symm]
  exact Finset.sum_congr rfl fun j _ => tail_gathered A lab j (l j).val (l j).isLt (hl j)

/-- The program's result from the written array and label words of classes in range. -/
theorem tailFn_apply (A : FVec Ideal S16x1x1024 .f32) (lab : IVec S16384 32) (l : Fin 16384 → Fin 1000)
    (hl : ∀ i, lab (ix1 i) = BitVec.ofNat 32 (l i).val) :
    tailFn A lab ix0
      = Ideal.div (∑ t : Fin 16, A (ix3 t (0 : Fin 1) (⟨1000, by omega⟩ : Fin 1024))) Club.nWord
        - Ideal.div (∑ j : Fin 16384, Ideal.div (∑ t : Fin 16, A
            (ix3 t (0 : Fin 1) (⟨(l j).val, by have := (l j).isLt; omega⟩ : Fin 1024))) Club.nWord) Club.nWord := by
  unfold tailFn
  rw [subf_apply, hdiv_apply, hdiv_apply, constant_apply, tail_fst, tail_snd A lab l hl]

set_option maxHeartbeats 1000000 in
/-- The tail's result buffer is the composed function of the written array and the label words as launched. -/
theorem tail_eq (c : Dev nD) :
    (Pipeline.afterTail₀ cfgs (dats m) 0 (V0 m) [hostOps1] c main_v29 : S_.Idx → EReal)
      = tailFn ((dats m 0 c).arrAt 4 cfg0.N) (m ((c.tc : Thread nD τ).loc main_arg1)) := by
  unfold Pipeline.afterTail₀
  simp only [List.flatten_cons, List.flatten_nil, List.append_nil]
  have h12 : Pipeline.withArrays (cfgs 0).spec c (V0 m c) (fun w => (dats m 0 c).arrAt w (cfgs 0).N) (Proc.devRef .tc main_v12)
      = (dats m 0 c).arrAt 4 cfg0.N := Pipeline.withArrays_arr spec0 launch0.win.arr_inj c _ _ 4
  have h1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  generalize Pipeline.withArrays (cfgs 0).spec c (V0 m c) (fun w => (dats m 0 c).arrAt w (cfgs 0).N) = W at h12 h1 ⊢
  generalize (dats m 0 c).arrAt 4 cfg0.N = A at h12 ⊢
  generalize m ((c.tc : Thread nD τ).loc main_arg1) = lab at h1 ⊢
  unfold hostOps1
  after_results
  rw [h12, h1]
  unfold tailFn colsumV wrapV
  rfl

/-- The program's result from the written array `A` and the labels. -/
theorem tail_apply (c : Dev nD) (l : Fin 16384 → Fin 1000) (hl : ∀ i, argL m c i = BitVec.ofNat 32 (l i).val) :
    (Pipeline.afterTail₀ cfgs (dats m) 0 (V0 m) [hostOps1] c main_v29 : S_.Idx → EReal) ix0
      = Ideal.div (∑ t : Fin 16, ((dats m 0 c).arrAt 4 cfg0.N : S16x1x1024.Idx → EReal) (ix3 t (0 : Fin 1) (⟨1000, by omega⟩ : Fin 1024))) Club.nWord
        - Ideal.div (∑ j : Fin 16384, Ideal.div (∑ t : Fin 16, ((dats m 0 c).arrAt 4 cfg0.N : S16x1x1024.Idx → EReal)
            (ix3 t (0 : Fin 1) (⟨(l j).val, by have := (l j).isLt; omega⟩ : Fin 1024))) Club.nWord) Club.nWord := by
  rw [tail_eq]
  exact tailFn_apply _ _ l hl

end Cert.KernelIdeal.Val
end
-- ==== Proof.KValue.lean ====
/-
  The kernel program's result is `Club.kerValue` of its arguments: the host operations after the pallas_call add up the 16
  rows of the array it wrote, each row being the tile's `Club.kerPart`, read column 1000 and the label columns, and take the means.
-/
import proofs.«423650_j2585570312816_3_alg».proof.Proof.KBlocks
import proofs.«423650_j2585570312816_3_alg».proof.Proof.KTail

noncomputable section

open scoped BigOperators

namespace Cert.KernelIdeal.Val

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The result buffer after the run, for labels that are class numbers. -/
theorem result_eq (c : Dev nD) (l : Fin 16384 → Fin 1000) (hl : ∀ i, argL m c i = BitVec.ofNat 32 (l i).val) :
    (Pipeline.afterTail₀ cfgs (dats m) 0 (V0 m) [hostOps1] c main_v29 : S_.Idx → EReal)
      = fun _ => Club.kerValue (argX m c) (argW m c) (argB m c) (argL m c) l := by
  funext j
  rw [eq_ix0 j, tail_apply m c l hl]
  unfold Club.kerValue Club.kerColsum
  simp only [arr_apply]

end Cert.KernelIdeal.Val

end
-- ==== Proof.PreDecode.lean ====
/-
  What the precondition says of the four arguments: every entry of the inputs, the weights and the bias is a real number
  (its absolute value is below +∞, and an extended real whose absolute value is below +∞ is neither infinity), and every label
  word, read signed, lies in [0, 1000): it is the word of a class number.
-/
import proofs.«423650_j2585570312816_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

open scoped BigOperators

namespace Cert.PreDecode

open Idealize.ShloMosaic Idealize.ShloMosaic.ValueIdx Cert.Pre_finite_inputs

/-- The word 0x7F800000 is +∞. -/
private theorem inf_word : Ideal.ofBits .f32 0x7F800000#32 = (⊤ : EReal) := by simp [Ideal.ofBits, Ideal.ieee]

/-- An extended real whose absolute value is below +∞ is a real number. -/
private theorem real_of_abs_lt (a : EReal)
    (h : Ideal.cmp .olt (max a (-a)) (Ideal.ofBits .f32 0x7F800000#32) = 1#1) : ∃ r : ℝ, a = (r : EReal) := by
  rw [inf_word] at h
  unfold Ideal.cmp at h
  rw [StableHlo.Predicate.ofBool_eq_one_iff, decide_eq_true_eq, max_lt_iff] at h
  induction a using EReal.rec with
  | bot => exact absurd h.2 (by simp)
  | coe r => exact ⟨r, rfl⟩
  | top => exact absurd h.1 (by simp)

/-- A word in [0, 1000) read signed is below 1000 read unsigned. -/
private theorem label_lt (a : BitVec 32) (h0 : IntOp.cmpi .sge a 0#32 = 1#1) (h1 : IntOp.cmpi .slt a 1000#32 = 1#1) :
    a.toNat < 1000 := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  have h32 := a.isLt
  rw [BitVec.toInt_eq_toNat_cond] at h0 h1
  split at h0 <;> omega

/-- The scalar shape has one index. -/
private instance : Subsingleton S_.Idx := ⟨fun a b => funext fun d => d.elim0⟩

/-- A word is the word of its value. -/
private theorem word_eq (a : BitVec 32) : a = BitVec.ofNat 32 a.toNat :=
  BitVec.eq_of_toNat_eq (by rw [BitVec.toNat_ofNat]; exact (Nat.mod_eq_of_lt a.isLt).symm)
/-- The precondition's content. -/
theorem decode [Cert.Pre_finite_inputs.Facts] (x0 : FVec Ideal S16384x1024 .f32) (x1 : IVec S16384 32)
    (x2 : FVec Ideal S1000x1024 .f32) (x3 : FVec Ideal S1000 .f32)
    (h : Cert.Pre_finite_inputs.fn (F := Ideal) x0 x1 x2 x3 = fun _ => 1#1) :
    ∃ (x : Fin 16384 → Fin 1024 → ℝ) (w : Fin 1000 → Fin 1024 → ℝ) (b : Fin 1000 → ℝ) (l : Fin 16384 → Fin 1000),
      (∀ i k, x0 (ix2 i k) = (x i k : EReal)) ∧ (∀ cl k, x2 (ix2 cl k) = (w cl k : EReal)) ∧ (∀ cl, x3 (ix1 cl) = (b cl : EReal))
        ∧ (∀ i, x1 (ix1 i) = BitVec.ofNat 32 (l i).val) := by
  have h0 := congrFun h ValueIdx.ix0
  dsimp only [fn, fn_part1] at h0
  obtain ⟨h0, hE⟩ := IntOp.andi_eq_one.1 h0
  obtain ⟨h0, hD⟩ := IntOp.andi_eq_one.1 h0
  obtain ⟨h0, hC⟩ := IntOp.andi_eq_one.1 h0
  obtain ⟨hA, hB⟩ := IntOp.andi_eq_one.1 h0
  have hA' := fun i => Host.reduce_andi_all _ _ _ _ _ hA i
  have hB' := fun i => Host.reduce_andi_all _ _ _ _ _ hB i
  have hC' := fun i => Host.reduce_andi_all _ _ _ _ _ hC i
  have hD' := fun i => Host.reduce_andi_all _ _ _ _ _ hD i
  have hE' := fun i => Host.reduce_andi_all _ _ _ _ _ hE i
  have rA : ∀ i, ∃ r : ℝ, x0 i = (r : EReal) := fun i => real_of_abs_lt (x0 i) (hA' i)
  have rB : ∀ i, ∃ r : ℝ, x2 i = (r : EReal) := fun i => real_of_abs_lt (x2 i) (hB' i)
  have rC : ∀ i, ∃ r : ℝ, x3 i = (r : EReal) := fun i => real_of_abs_lt (x3 i) (hC' i)
  have rL : ∀ i, (x1 i).toNat < 1000 := fun i => label_lt (x1 i) (hD' i) (hE' i)
  choose fA hfA using rA
  choose fB hfB using rB
  choose fC hfC using rC
  exact ⟨fun i k => fA (ix2 i k), fun cl k => fB (ix2 cl k), fun cl => fC (ix1 cl), fun i => ⟨(x1 (ix1 i)).toNat, rL _⟩,
    fun i k => hfA _, fun cl k => hfB _, fun cl => hfC _, fun i => word_eq _⟩

end Cert.PreDecode

end
-- ==== Proof.SpecLemmas.lean ====
/-
  Small facts about extended reals that are real numbers, used to carry the two programs' computations down to the
  reals: a finite sum of reals is a real, a maximum of finitely many reals (folded from `-∞`) is a real, `exp` of a real
  is a positive real and `log` of a positive real is a real, the divisor word is 16384, the padded columns' bias word is
  a real; the 16 tiles of 1024 rows are the 16384 rows; and the estimator `gap` does not see a per-row constant.
-/
import proofs.«423650_j2585570312816_3_alg».proof.Proof.Spec

noncomputable section

open scoped BigOperators

namespace Cert.Club

open Idealize.ShloMosaic

/-- A finite sum of coerced reals is the coerced sum. -/
theorem coe_sum {ι : Type*} (s : Finset ι) (f : ι → ℝ) : (∑ i ∈ s, (f i : EReal)) = ((∑ i ∈ s, f i : ℝ) : EReal) := by
  classical
  -- one term at a time: the coercion is additive
  induction s using Finset.induction_on with
  | empty => simp
  | insert a s ha ih => rw [Finset.sum_insert ha, Finset.sum_insert ha, ih, EReal.coe_add]

/-- The maximum of a nonempty finite family of reals, folded from `-∞`, is a real: the family's supremum. -/
theorem fold_max_coe {n : ℕ} (f : Fin (n + 1) → ℝ) :
    (Finset.univ : Finset (Fin (n + 1))).fold max (⊥ : EReal) (fun c => (f c : EReal))
      = ((Finset.univ.sup' Finset.univ_nonempty f : ℝ) : EReal) := by
  -- the coercion is monotone, so it carries the supremum of the reals to the supremum of their images; over a
  -- nonempty family that supremum is the supremum taken with `-∞` thrown in, which is the fold of `max` from `-∞`
  rw [Finset.comp_sup'_eq_sup'_comp Finset.univ_nonempty (fun x : ℝ => (x : EReal))
    (fun x y => EReal.coe_strictMono.monotone.map_max), Finset.sup'_eq_sup]
  rfl

/-- `exp` of a real is the real exponential. -/
theorem exp_coe (r : ℝ) : Ideal.exp (r : EReal) = (Real.exp r : EReal) := rfl

/-- `log` of a positive real is the real logarithm. -/
theorem log_coe {r : ℝ} (hr : 0 < r) : Ideal.log (r : EReal) = (Real.log r : EReal) := by
  rw [Ideal.log_coe, if_neg (not_le.mpr hr)]

/-- The divisor word denotes 16384. -/
theorem nWord_eq : nWord = ((16384 : ℝ) : EReal) := by
  -- sign 0, exponent field 141, fraction 0: the value is 2^23 · 2^(141 - 127 - 23) = 2^14
  simp [Ideal.ofBits, Ideal.ieee, -EReal.coe_mul]; norm_num

/-- Dividing a real by the divisor word. -/
theorem div_nWord (r : ℝ) : Ideal.div (r : EReal) nWord = ((r / 16384 : ℝ) : EReal) := by
  rw [nWord_eq, Ideal.div_coe (by norm_num : (16384 : ℝ) ≠ 0), ← EReal.coe_mul, mul_one_div]

/-- The padded columns' bias word denotes a real number. -/
theorem negBig_real : ∃ r : ℝ, negBig = (r : EReal) := by
  -- sign 1, exponent field 156 (neither 0 nor 255): a negative normal number
  simp [Ideal.ofBits, Ideal.ieee, -EReal.coe_mul]
  exact ⟨_, (EReal.coe_neg _).symm⟩

/-- The zero word. -/
theorem zeroWord_eq : Ideal.ofBits .f32 0x00000000#32 = 0 := by
  simp [Ideal.ofBits, Ideal.ieee]

/-- Summing tile by tile is summing over all rows. -/
theorem sum_tiles {M : Type*} [AddCommMonoid M] (f : Fin 16384 → M) :
    ∑ t : Fin 16, ∑ r : Fin 1024, f (row t r) = ∑ i : Fin 16384, f i := by
  -- the double sum is a sum over pairs, and `(t, r) ↦ 1024 t + r` is a bijection from the pairs onto the rows
  rw [← Fintype.sum_prod_type' (f := fun t r => f (row t r))]
  exact Fintype.sum_equiv (finProdFinEquiv (m := 16) (n := 1024)) _ _
    (fun x => by congr 1; ext; simp [row, finProdFinEquiv]; ring)

/-- Subtracting a per-row constant changes nothing: its share of the diagonal mean is its share of the mean of means. -/
theorem gap_sub_row (a : Fin 16384 → Fin 1000 → ℝ) (l : Fin 16384 → Fin 1000) (c : Fin 16384 → ℝ) :
    gap (fun i j => a i j - c i) l = gap a l := by
  unfold gap
  -- with `C = ∑ i, c i`: the first mean loses `C / N`; every column mean loses `C / N`, so their mean loses
  -- `(N · (C / N)) / N = C / N` as well
  simp only [Finset.sum_sub_distrib, sub_div, Finset.sum_const, Finset.card_univ, Fintype.card_fin, nsmul_eq_mul,
    Nat.cast_ofNat]
  ring

end Cert.Club

end
-- ==== Proof.SpecRef.lean ====
/-
  The reference's computation on real inputs is `gap` of the real logits: its `log_softmax` subtracts from every row a
  real constant (the row's maximum plus the logarithm of its shifted exponentials' sum, a positive real), and `gap` does not
  see a per-row constant.
-/
import proofs.«423650_j2585570312816_3_alg».proof.Proof.SpecLemmas

noncomputable section

open scoped BigOperators

namespace Cert.Club

open Idealize.ShloMosaic

section
variable (x : Fin 16384 → Fin 1024 → ℝ) (w : Fin 1000 → Fin 1024 → ℝ) (b : Fin 1000 → ℝ)

/-- The real row maximum: the supremum of the row's 1000 real logits. -/
private def rmax (i : Fin 16384) : ℝ :=
  (Finset.univ : Finset (Fin 1000)).sup' Finset.univ_nonempty (rlogit x w b i)

/-- The real sum of the row's shifted exponentials. -/
private def rsum (i : Fin 16384) : ℝ := ∑ c' : Fin 1000, Real.exp (rlogit x w b i c' - rmax x w b i)

/-- A sum of exponentials over a nonempty index set is positive. -/
private theorem rsum_pos (i : Fin 16384) : 0 < rsum x w b i :=
  Finset.sum_pos (fun _ _ => Real.exp_pos _) Finset.univ_nonempty

/-- On real inputs the linear layer is the real linear layer. -/
private theorem logit_coe (i : Fin 16384) (c : Fin 1000) :
    logit (fun i k => (x i k : EReal)) (fun c k => (w c k : EReal)) (fun c => (b c : EReal)) i c
      = ((rlogit x w b i c : ℝ) : EReal) := by
  unfold logit rlogit
  simp only [← EReal.coe_mul]
  rw [coe_sum, ← EReal.coe_add]

/-- On real inputs the row maximum is the real row maximum. -/
private theorem refMax_coe (i : Fin 16384) :
    refMax (fun i k => (x i k : EReal)) (fun c k => (w c k : EReal)) (fun c => (b c : EReal)) i
      = ((rmax x w b i : ℝ) : EReal) := by
  unfold refMax
  simp only [logit_coe]
  have h : (Finset.univ : Finset (Fin 1000)).fold max (⊥ : EReal) (fun c => ((rlogit x w b i c : ℝ) : EReal))
      = ((rmax x w b i : ℝ) : EReal) := fold_max_coe (n := 999) (rlogit x w b i)
  rw [h]
  exact max_eq_right bot_le

/-- On real inputs `log_softmax` is the real logit minus the row's real constant. -/
private theorem refLp_coe (i : Fin 16384) (c : Fin 1000) :
    refLp (fun i k => (x i k : EReal)) (fun c k => (w c k : EReal)) (fun c => (b c : EReal)) i c
      = ((rlogit x w b i c - (rmax x w b i + Real.log (rsum x w b i)) : ℝ) : EReal) := by
  unfold refLp
  simp only [logit_coe, refMax_coe, ← EReal.coe_sub, exp_coe]
  rw [coe_sum]
  have h : Ideal.log ((rsum x w b i : ℝ) : EReal) = ((Real.log (rsum x w b i) : ℝ) : EReal) := log_coe (rsum_pos x w b i)
  unfold rsum at h
  rw [h, ← EReal.coe_sub]
  unfold rsum
  rw [sub_sub]

end

theorem refValue_eq (x : Fin 16384 → Fin 1024 → ℝ) (w : Fin 1000 → Fin 1024 → ℝ) (b : Fin 1000 → ℝ)
    (l : Fin 16384 → Fin 1000) :
    refValue (fun i k => (x i k : EReal)) (fun c k => (w c k : EReal)) (fun c => (b c : EReal)) l
      = ((gap (rlogit x w b) l : ℝ) : EReal) := by
  unfold refValue
  simp only [refLp_coe, coe_sum, div_nWord, ← EReal.coe_sub]
  rw [← gap_sub_row (rlogit x w b) l (fun i => rmax x w b i + Real.log (rsum x w b i))]
  unfold gap
  rfl

end Cert.Club

end
-- ==== Proof.SpecKer.lean ====
/-
  The kernel's computation on real inputs is `gap` of the real logits.  On a class column `c < 1000` the kernel's
  logit is the real logit (zero-padded weights contribute nothing to other columns, the mask adds 0); on a padded column it
  is the real `-1e9`.  Every row's maximum over the 1024 columns and its log-sum-exp are reals, so every tile's column sum
  is the sum over the tile's rows of (logit − the row's constant), the tiles add up to the sum over all rows, and column
  1000 holds the diagonal sum of the same: `gap` of the logits minus a per-row constant.
-/
import proofs.«423650_j2585570312816_3_alg».proof.Proof.SpecLemmas

noncomputable section

open scoped BigOperators

namespace Cert.Club

open Idealize.ShloMosaic

/-! ## One row of a tile, over the reals -/

/-- A row's logit at a column: the row's inner product with the column's weights, plus the column's bias. -/
private def rowLogit (xr : Fin 1024 → ℝ) (wb : Fin 1024 → Fin 1024 → ℝ) (bm : Fin 1024 → ℝ) (c : Fin 1024) : ℝ :=
  (∑ k : Fin 1024, xr k * wb k c) + bm c

/-- A row's maximum over the 1024 columns. -/
private def rowMax (xr : Fin 1024 → ℝ) (wb : Fin 1024 → Fin 1024 → ℝ) (bm : Fin 1024 → ℝ) : ℝ :=
  (Finset.univ : Finset (Fin (1023 + 1))).sup' Finset.univ_nonempty (rowLogit xr wb bm)

/-- A row's sum of shifted exponentials. -/
private def rowSum (xr : Fin 1024 → ℝ) (wb : Fin 1024 → Fin 1024 → ℝ) (bm : Fin 1024 → ℝ) : ℝ :=
  ∑ c : Fin 1024, Real.exp (rowLogit xr wb bm c - rowMax xr wb bm)

/-- A row's constant: its maximum plus the logarithm of its sum of shifted exponentials. -/
private def rowConst (xr : Fin 1024 → ℝ) (wb : Fin 1024 → Fin 1024 → ℝ) (bm : Fin 1024 → ℝ) : ℝ :=
  rowMax xr wb bm + Real.log (rowSum xr wb bm)

private theorem rowSum_pos (xr : Fin 1024 → ℝ) (wb : Fin 1024 → Fin 1024 → ℝ) (bm : Fin 1024 → ℝ) :
    0 < rowSum xr wb bm := by
  unfold rowSum
  exact Finset.sum_pos (fun c _ => Real.exp_pos _) ⟨⟨0, by omega⟩, Finset.mem_univ _⟩

section TileReal
variable (xb : Fin 1024 → Fin 1024 → ℝ) (wb : Fin 1024 → Fin 1024 → ℝ) (bm : Fin 1024 → ℝ)

private theorem tLogit_coe (r c : Fin 1024) :
    tLogit (fun r k => (xb r k : EReal)) (fun k c => (wb k c : EReal)) (fun c => (bm c : EReal)) r c
      = ((rowLogit (xb r) wb bm c : ℝ) : EReal) := by
  unfold tLogit rowLogit
  simp only [← EReal.coe_mul]
  rw [coe_sum, ← EReal.coe_add]

private theorem tMax_coe (r : Fin 1024) :
    tMax (fun r k => (xb r k : EReal)) (fun k c => (wb k c : EReal)) (fun c => (bm c : EReal)) r
      = ((rowMax (xb r) wb bm : ℝ) : EReal) := by
  unfold tMax rowMax
  simp only [tLogit_coe]
  exact fold_max_coe (n := 1023) (rowLogit (xb r) wb bm)

private theorem tShift_coe (r c : Fin 1024) :
    tShift (fun r k => (xb r k : EReal)) (fun k c => (wb k c : EReal)) (fun c => (bm c : EReal)) r c
      = ((rowLogit (xb r) wb bm c - rowMax (xb r) wb bm : ℝ) : EReal) := by
  unfold tShift
  rw [tLogit_coe, tMax_coe, ← EReal.coe_sub]

private theorem tLse_coe (r : Fin 1024) :
    tLse (fun r k => (xb r k : EReal)) (fun k c => (wb k c : EReal)) (fun c => (bm c : EReal)) r
      = ((Real.log (rowSum (xb r) wb bm) : ℝ) : EReal) := by
  unfold tLse
  simp only [tShift_coe, exp_coe]
  rw [coe_sum]
  exact log_coe (rowSum_pos (xb r) wb bm)

end TileReal

/-! ## The one-hot pick and a tile's output row -/

/-- Two numbers below 1024 with the same 32-bit word are equal. -/
private theorem ofNat_eq_iff (c : Fin 1024) (n : ℕ) (hn : n < 1024) :
    BitVec.ofNat 32 c.val = BitVec.ofNat 32 n ↔ c = ⟨n, hn⟩ := by
  constructor
  · intro h
    have h2 := congrArg BitVec.toNat h
    simp only [BitVec.toNat_ofNat] at h2
    have hc := c.isLt
    apply Fin.ext
    show c.val = n
    omega
  · intro h
    rw [h]

section TileReal2
variable (xb : Fin 1024 → Fin 1024 → ℝ) (wb : Fin 1024 → Fin 1024 → ℝ) (bm : Fin 1024 → ℝ)

private theorem tSel_coe (lb : Fin 1024 → BitVec 32) (r : Fin 1024) (n : ℕ) (hn : n < 1024)
    (hlb : lb r = BitVec.ofNat 32 n) :
    tSel (fun r k => (xb r k : EReal)) (fun k c => (wb k c : EReal)) (fun c => (bm c : EReal)) lb r
      = ((rowLogit (xb r) wb bm ⟨n, hn⟩ - rowMax (xb r) wb bm : ℝ) : EReal) := by
  unfold tSel
  rw [hlb]
  simp only [ofNat_eq_iff _ n hn]
  rw [Finset.sum_ite_eq' Finset.univ (⟨n, hn⟩ : Fin 1024), if_pos (Finset.mem_univ _), tShift_coe]

private theorem tilePart_coe (lb : Fin 1024 → BitVec 32) (lab : Fin 1024 → Fin 1024)
    (hlb : ∀ r, lb r = BitVec.ofNat 32 (lab r).val) (c : Fin 1024) :
    tilePart (fun r k => (xb r k : EReal)) (fun k c => (wb k c : EReal)) (fun c => (bm c : EReal)) lb c
      = ((∑ r : Fin 1024, ((if c.val = 1000 then rowLogit (xb r) wb bm (lab r) else rowLogit (xb r) wb bm c)
            - rowConst (xb r) wb bm) : ℝ) : EReal) := by
  have hsel : ∀ r, tSel (fun r k => (xb r k : EReal)) (fun k c => (wb k c : EReal)) (fun c => (bm c : EReal)) lb r
      = ((rowLogit (xb r) wb bm (lab r) - rowMax (xb r) wb bm : ℝ) : EReal) :=
    fun r => tSel_coe xb wb bm lb r (lab r).val (lab r).isLt (hlb r)
  unfold tilePart
  by_cases hc : c.val = 1000
  · rw [if_pos hc]
    simp only [if_pos hc, hsel, tLse_coe]
    rw [coe_sum, coe_sum, ← EReal.coe_sub, ← Finset.sum_sub_distrib]
    congr 1
    apply Finset.sum_congr rfl
    intro r _
    unfold rowConst
    ring
  · rw [if_neg hc]
    simp only [if_neg hc, tShift_coe, tLse_coe]
    rw [coe_sum, coe_sum, ← EReal.coe_sub, ← Finset.sum_sub_distrib]
    congr 1
    apply Finset.sum_congr rfl
    intro r _
    unfold rowConst
    ring

end TileReal2

/-! ## The kernel's blocks are real -/

/-- The padded weights over the reals. -/
private def wReal (w : Fin 1000 → Fin 1024 → ℝ) (k c : Fin 1024) : ℝ := if h : c.val < 1000 then w ⟨c.val, h⟩ k else 0

/-- The real number the padded columns' bias word denotes. -/
private def negBigR : ℝ := Classical.choose negBig_real

private theorem negBig_eq : negBig = (negBigR : EReal) := Classical.choose_spec negBig_real

/-- The padded bias plus the mask, over the reals. -/
private def bReal (b : Fin 1000 → ℝ) (c : Fin 1024) : ℝ :=
  (if h : c.val < 1000 then b ⟨c.val, h⟩ else 0) + (if c.val < 1000 then 0 else negBigR)

private theorem wPad_coe (w : Fin 1000 → Fin 1024 → ℝ) :
    wPad (fun c k => (w c k : EReal)) = fun k c => ((wReal w k c : ℝ) : EReal) := by
  funext k c
  unfold wPad wReal
  by_cases h : c.val < 1000
  · rw [dif_pos h, dif_pos h]
  · rw [dif_neg h, dif_neg h, EReal.coe_zero]

private theorem bMask_coe (b : Fin 1000 → ℝ) :
    bMask (fun c => (b c : EReal)) = fun c => ((bReal b c : ℝ) : EReal) := by
  funext c
  unfold bMask bReal
  by_cases h : c.val < 1000
  · rw [dif_pos h, if_pos h, dif_pos h, if_pos h, EReal.coe_add, EReal.coe_zero]
  · rw [dif_neg h, if_neg h, dif_neg h, if_neg h, EReal.coe_add, EReal.coe_zero, negBig_eq]

/-- On a class column the kernel's logit is the linear layer's. -/
private theorem rowLogit_class (x : Fin 16384 → Fin 1024 → ℝ) (w : Fin 1000 → Fin 1024 → ℝ) (b : Fin 1000 → ℝ)
    (i : Fin 16384) (c : Fin 1000) (hc : c.val < 1024) :
    rowLogit (x i) (wReal w) (bReal b) ⟨c.val, hc⟩ = rlogit x w b i c := by
  have h : (⟨c.val, hc⟩ : Fin 1024).val < 1000 := c.isLt
  unfold rowLogit rlogit wReal bReal
  rw [dif_pos h, if_pos h, add_zero]
  simp only [dif_pos h]

/-! ## The tiles' rows, their sum, and the result -/

section Kernel
variable (x : Fin 16384 → Fin 1024 → ℝ) (w : Fin 1000 → Fin 1024 → ℝ) (b : Fin 1000 → ℝ) (l : Fin 16384 → Fin 1000)

/-- A row's constant in the kernel: its maximum over the 1024 columns plus its log-sum-exp. -/
private def kConst (i : Fin 16384) : ℝ := rowConst (x i) (wReal w) (bReal b)

/-- What row `i` adds to column `c` of the kernel's output row. -/
private def kEntry (i : Fin 16384) (c : Fin 1024) : ℝ :=
  (if c.val = 1000 then rowLogit (x i) (wReal w) (bReal b) ⟨(l i).val, by have := (l i).isLt; omega⟩
    else rowLogit (x i) (wReal w) (bReal b) c) - kConst x w b i

private theorem kEntry_diag (i : Fin 16384) (h : 1000 < 1024) :
    kEntry x w b l i ⟨1000, h⟩ = rlogit x w b i (l i) - kConst x w b i := by
  unfold kEntry
  rw [if_pos rfl, rowLogit_class]

private theorem kEntry_class (i : Fin 16384) (c : Fin 1000) (h : c.val < 1024) :
    kEntry x w b l i ⟨c.val, h⟩ = rlogit x w b i c - kConst x w b i := by
  have hne : ¬ ((⟨c.val, h⟩ : Fin 1024).val = 1000) := by
    have := c.isLt
    show ¬ (c.val = 1000)
    omega
  unfold kEntry
  rw [if_neg hne, rowLogit_class]

variable (lw : Fin 16384 → BitVec 32) (hl : ∀ i, lw i = BitVec.ofNat 32 (l i).val)
include hl

private theorem kerPart_coe (t : Fin 16) (c : Fin 1024) :
    kerPart (fun i k => (x i k : EReal)) (fun c k => (w c k : EReal)) (fun c => (b c : EReal)) lw t c
      = ((∑ r : Fin 1024, kEntry x w b l (row t r) c : ℝ) : EReal) := by
  unfold kerPart
  rw [wPad_coe, bMask_coe]
  exact tilePart_coe (fun r k => x (row t r) k) (wReal w) (bReal b) (fun r => lw (row t r))
    (fun r => ⟨(l (row t r)).val, by have := (l (row t r)).isLt; omega⟩) (fun r => hl (row t r)) c

private theorem kerColsum_coe (c : Fin 1024) :
    kerColsum (fun i k => (x i k : EReal)) (fun c k => (w c k : EReal)) (fun c => (b c : EReal)) lw c
      = ((∑ i : Fin 16384, kEntry x w b l i c : ℝ) : EReal) := by
  unfold kerColsum
  simp only [kerPart_coe x w b l lw hl]
  rw [coe_sum, sum_tiles (fun i => kEntry x w b l i c)]

end Kernel

theorem kerValue_eq (x : Fin 16384 → Fin 1024 → ℝ) (w : Fin 1000 → Fin 1024 → ℝ) (b : Fin 1000 → ℝ)
    (l : Fin 16384 → Fin 1000) (lw : Fin 16384 → BitVec 32) (hl : ∀ i, lw i = BitVec.ofNat 32 (l i).val) :
    kerValue (fun i k => (x i k : EReal)) (fun c k => (w c k : EReal)) (fun c => (b c : EReal)) lw l
      = ((gap (rlogit x w b) l : ℝ) : EReal) := by
  unfold kerValue
  simp only [kerColsum_coe x w b l lw hl, div_nWord]
  rw [coe_sum, div_nWord, ← EReal.coe_sub]
  rw [← gap_sub_row (rlogit x w b) l (kConst x w b)]
  unfold gap
  simp only [kEntry_diag, kEntry_class]

end Cert.Club

end
-- ==== Proof.lean ====
/-
  The kernel computes, tile by tile, the column sums of the shifted logits minus the rows' log-sum-exps, parks the sum of
  the label entries in a padded column, and its wrapper takes `mean of the diagonal − mean of the label columns' means`; the
  reference takes the same two means of `log_softmax` of the logits.  Both are the estimator `Club.gap` applied to the logits
  minus a per-row constant, and the estimator does not see a per-row constant: the first mean's share of it is the second
  mean's.  The two programs' constants differ (the kernel's maximum and sum run over 24 more, padded, columns), which is why
  the two results are compared through `gap` of the logits themselves and not term by term.  The cancellation needs every
  constant to be a real number, so the inputs are taken finite; and the labels are taken to be class numbers, as both
  programs index with them.
  The frames of the two kernel programs are the generated frame certificates; the reference's frame is its run with the
  result dropped; the kernel's value is read off its frame run (the blocks the grid points wrote, then the host operations
  after the call), the reference's off its run stage by stage.
-/
import proofs.«423650_j2585570312816_3_alg».proof.Defs
import proofs.«423650_j2585570312816_3_alg».proof.Proof.Gen.Kernel
import proofs.«423650_j2585570312816_3_alg».proof.Proof.Gen.Kernel.Skeleton
import proofs.«423650_j2585570312816_3_alg».proof.Proof.Gen.Kernel.Launch
import proofs.«423650_j2585570312816_3_alg».proof.Proof.Gen.Kernel.Points
import proofs.«423650_j2585570312816_3_alg».proof.Proof.Gen.Kernel.Frame
import proofs.«423650_j2585570312816_3_alg».proof.Proof.Gen.KernelIdeal
import proofs.«423650_j2585570312816_3_alg».proof.Proof.Gen.KernelIdeal.Skeleton
import proofs.«423650_j2585570312816_3_alg».proof.Proof.Gen.KernelIdeal.Launch
import proofs.«423650_j2585570312816_3_alg».proof.Proof.Gen.KernelIdeal.Points
import proofs.«423650_j2585570312816_3_alg».proof.Proof.Gen.KernelIdeal.Frame
import proofs.«423650_j2585570312816_3_alg».proof.Proof.Gen.ReferenceIdeal
import proofs.«423650_j2585570312816_3_alg».proof.Proof.Gen.Pre_finite_inputs
import proofs.«423650_j2585570312816_3_alg».proof.Proof.RefRun
import proofs.«423650_j2585570312816_3_alg».proof.Proof.RefRead
import proofs.«423650_j2585570312816_3_alg».proof.Proof.RefValue
import proofs.«423650_j2585570312816_3_alg».proof.Proof.KValue
import proofs.«423650_j2585570312816_3_alg».proof.Proof.PreDecode
import proofs.«423650_j2585570312816_3_alg».proof.Proof.SpecRef
import proofs.«423650_j2585570312816_3_alg».proof.Proof.SpecKer
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

section Kernel
open Cert.KernelIdeal Cert.KernelIdeal.Gen

/-- The kernel program's run with its result named: the result buffer is what the host operations after the call make of
    the written array, the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29) = Pipeline.afterTail₀ cfgs (dats m) 0 (V0 m) [hostOps1] c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v29 (Pipeline.mem_restRefs_of main_v29 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Kernel

/-- On finite inputs and class-number labels the two results are the same extended real: both are `gap` of the logits. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v29, kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨x, w, b, l, hx, hw, hb, hl⟩ := Cert.PreDecode.decode _ _ _ _ (hpre c)
  rw [Cert.ReferenceIdeal.ReadP.val_main_v34_eq, (hagree c).1, (hagree c).2.1, (hagree c).2.2.1, (hagree c).2.2.2]
  have hX : Cert.KernelIdeal.Val.argX m c = fun i k => (x i k : EReal) := funext fun i => funext fun k => hx i k
  have hW : Cert.KernelIdeal.Val.argW m c = fun cl k => (w cl k : EReal) := funext fun cl => funext fun k => hw cl k
  have hB : Cert.KernelIdeal.Val.argB m c = fun cl => (b cl : EReal) := funext fun cl => hb cl
  have hL : ∀ i, Cert.KernelIdeal.Val.argL m c i = BitVec.ofNat 32 (l i).val := hl
  refine Eq.trans ?_ (Cert.KernelIdeal.Val.result_eq m c l hL).symm
  funext j
  rw [eq_ix0 j, Cert.ReferenceIdeal.RefValue.ref_apply _ _ _ _ l hl, hX, hW, hB]
  have hX' : (fun (i : Fin 16384) (k : Fin 1024) => m ((c.tc : Thread Cert.KernelIdeal.nD Cert.KernelIdeal.τ).loc Cert.KernelIdeal.main_arg0) (ix2 i k))
      = fun i k => (x i k : EReal) := funext fun i => funext fun k => hx i k
  have hW' : (fun (cl : Fin 1000) (k : Fin 1024) => m ((c.tc : Thread Cert.KernelIdeal.nD Cert.KernelIdeal.τ).loc Cert.KernelIdeal.main_arg2) (ix2 cl k))
      = fun cl k => (w cl k : EReal) := funext fun cl => funext fun k => hw cl k
  have hB' : (fun (cl : Fin 1000) => m ((c.tc : Thread Cert.KernelIdeal.nD Cert.KernelIdeal.τ).loc Cert.KernelIdeal.main_arg3) (ix1 cl))
      = fun cl => (b cl : EReal) := funext fun cl => hb cl
  rw [hX', hW', hB', Cert.Club.refValue_eq, Cert.Club.kerValue_eq x w b l _ hL]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
